-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16384x3 : Shape := ⟨3, ![8, 16384, 3]⟩
abbrev S8x2048x3 : Shape := ⟨3, ![8, 2048, 3]⟩
abbrev S8x16384x128 : Shape := ⟨3, ![8, 16384, 128]⟩
abbrev S_ : Shape := ⟨0, ![]⟩

class Facts : Prop where
  bcast_S_S8x16384x3 : S_.BroadcastsInDim S8x16384x3 (![] : Fin 0 → Fin S8x16384x3.rank)
  reducesTo_S8x16384x3_S_d0_1_2 : S8x16384x3.ReducesTo [0, 1, 2] S_
  h_S_ : 0 < S_.numel
  bcast_S_S8x2048x3 : S_.BroadcastsInDim S8x2048x3 (![] : Fin 0 → Fin S8x2048x3.rank)
  reducesTo_S8x2048x3_S_d0_1_2 : S8x2048x3.ReducesTo [0, 1, 2] S_
  bcast_S_S8x16384x128 : S_.BroadcastsInDim S8x16384x128 (![] : Fin 0 → Fin S8x16384x128.rank)
  reducesTo_S8x16384x128_S_d0_1_2 : S8x16384x128.ReducesTo [0, 1, 2] S_

variable [Facts]

def fn {F : FTy → Type} [FloatOps F] (main_arg0 : FVec F S8x16384x3 .f32) (main_arg1 : FVec F S8x2048x3 .f32) (main_arg2 : FVec F S8x16384x128 .f32) : IVec S_ 1 :=
  let main_v0 : FVec F S8x16384x3 .f32 := Host.absf main_arg0
  let main_cst : FVec F S_ .f32 := constant S_ .f32 0x7F800000#32
  let main_v1 : FVec F S8x16384x3 .f32 := broadcastInDim S8x16384x3 ![] bcast_S_S8x16384x3 main_cst
  let main_v2 : IVec S8x16384x3 1 := cmpf .olt main_v0 main_v1
  let main_c : IVec S_ 1 := constantI S_ 1 1#1
  let main_v3 : IVec S_ 1 := (fun x v => Host.reduce IntOp.andi x v reducesTo_S8x16384x3_S_d0_1_2 h_S_) main_v2 main_c
  let main_v4 : FVec F S8x2048x3 .f32 := Host.absf main_arg1
  let main_cst_0 : FVec F S_ .f32 := constant S_ .f32 0x7F800000#32
  let main_v5 : FVec F S8x2048x3 .f32 := broadcastInDim S8x2048x3 ![] bcast_S_S8x2048x3 main_cst_0
  let main_v6 : IVec S8x2048x3 1 := cmpf .olt main_v4 main_v5
  let main_c_1 : IVec S_ 1 := constantI S_ 1 1#1
  let main_v7 : IVec S_ 1 := (fun x v => Host.reduce IntOp.andi x v reducesTo_S8x2048x3_S_d0_1_2 h_S_) main_v6 main_c_1
  let main_v8 : IVec S_ 1 := andi main_v3 main_v7
  let main_v9 : FVec F S8x16384x128 .f32 := Host.absf main_arg2
  let main_cst_2 : FVec F S_ .f32 := constant S_ .f32 0x7F800000#32
  let main_v10 : FVec F S8x16384x128 .f32 := broadcastInDim S8x16384x128 ![] bcast_S_S8x16384x128 main_cst_2
  let main_v11 : IVec S8x16384x128 1 := cmpf .olt main_v9 main_v10
  let main_c_3 : IVec S_ 1 := constantI S_ 1 1#1
  let main_v12 : IVec S_ 1 := (fun x v => Host.reduce IntOp.andi x v reducesTo_S8x16384x128_S_d0_1_2 h_S_) main_v11 main_c_3
  let main_v13 : IVec S_ 1 := andi main_v8 main_v12
  main_v13
-- ==== Kernel.lean ====
abbrev S8x16384x3 : Shape := ⟨3, ![8, 16384, 3]⟩
abbrev S8x2048x3 : Shape := ⟨3, ![8, 2048, 3]⟩
abbrev S8x16384x128 : Shape := ⟨3, ![8, 16384, 128]⟩
abbrev S_ : Shape := ⟨0, ![]⟩
abbrev S8x16384 : Shape := ⟨2, ![8, 16384]⟩
abbrev S8x2048 : Shape := ⟨2, ![8, 2048]⟩
abbrev S8x2048x1 : Shape := ⟨3, ![8, 2048, 1]⟩
abbrev S8x1x16384 : Shape := ⟨3, ![8, 1, 16384]⟩
abbrev S8x2048x16384 : Shape := ⟨3, ![8, 2048, 16384]⟩
abbrev S16384 : Shape := ⟨1, ![16384]⟩
abbrev S8x2048x64 : Shape := ⟨3, ![8, 2048, 64]⟩
abbrev S8x2048x64x3 : Shape := ⟨4, ![8, 2048, 64, 3]⟩
abbrev S8x2048x64x128 : Shape := ⟨4, ![8, 2048, 64, 128]⟩
abbrev S1x128x64 : Shape := ⟨3, ![1, 128, 64]⟩
abbrev S1x256x3 : Shape := ⟨3, ![1, 256, 3]⟩
abbrev S1x256x128 : Shape := ⟨3, ![1, 256, 128]⟩
abbrev S1x128x3 : Shape := ⟨3, ![1, 128, 3]⟩
abbrev S1x128x64x3 : Shape := ⟨4, ![1, 128, 64, 3]⟩
abbrev S1x128x64x128 : Shape := ⟨4, ![1, 128, 64, 128]⟩
abbrev S128x64x128 : Shape := ⟨3, ![128, 64, 128]⟩
abbrev S128x64x3 : Shape := ⟨3, ![128, 64, 3]⟩
abbrev S128x64 : Shape := ⟨2, ![128, 64]⟩
abbrev S1x1x256 : Shape := ⟨3, ![1, 1, 256]⟩
abbrev S128x64x1 : Shape := ⟨3, ![128, 64, 1]⟩
abbrev S128x64x256 : Shape := ⟨3, ![128, 64, 256]⟩
abbrev S8192x256 : Shape := ⟨2, ![8192, 256]⟩
abbrev S256x128 : Shape := ⟨2, ![256, 128]⟩
abbrev S8192x128 : Shape := ⟨2, ![8192, 128]⟩
abbrev S256x3 : Shape := ⟨2, ![256, 3]⟩
abbrev S8192x3 : Shape := ⟨2, ![8192, 3]⟩
abbrev S128x3 : Shape := ⟨2, ![128, 3]⟩
abbrev S128x1x3 : Shape := ⟨3, ![128, 1, 3]⟩
abbrev S8x2048x64x131 : Shape := ⟨4, ![8, 2048, 64, 131]⟩

abbrev nBuf : Space → Nat
  | .hbm => 47
  | .vmem => 14
  | .smem => 0
  | _ => 0

abbrev bufTy : (tb : Table) → Fin (tcTables nBuf tb) → BufTy
  | .hbm, ⟨0, _⟩ => ⟨S8x16384x3, .f32⟩
  | .hbm, ⟨1, _⟩ => ⟨S8x2048x3, .f32⟩
  | .hbm, ⟨2, _⟩ => ⟨S8x16384x128, .f32⟩
  | .hbm, ⟨3, _⟩ => ⟨S8x16384x3, .f32⟩
  | .hbm, ⟨4, _⟩ => ⟨S_, .f32⟩
  | .hbm, ⟨5, _⟩ => ⟨S8x16384, .f32⟩
  | .hbm, ⟨6, _⟩ => ⟨S8x2048x3, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S8x1x16384, .f32⟩
  | .hbm, ⟨11, _⟩ => ⟨S8x2048x16384, .f32⟩
  | .hbm, ⟨12, _⟩ => ⟨S8x2048x16384, .f32⟩
  | .hbm, ⟨13, _⟩ => ⟨S8x2048x16384, .f32⟩
  | .hbm, ⟨14, _⟩ => ⟨S8x2048x16384, .f32⟩
  | .hbm, ⟨15, _⟩ => ⟨S_, .f32⟩
  | .hbm, ⟨16, _⟩ => ⟨S8x2048x16384, .f32⟩
  | .hbm, ⟨17, _⟩ => ⟨S8x2048x16384, .f32⟩
  | .hbm, ⟨18, _⟩ => ⟨S8x2048x16384, .f32⟩
  | .hbm, ⟨19, _⟩ => ⟨S_, .f32⟩
  | .hbm, ⟨20, _⟩ => ⟨S8x2048x16384, .f32⟩
  | .hbm, ⟨21, _⟩ => ⟨S8x2048x16384, .i1⟩
  | .hbm, ⟨22, _⟩ => ⟨S16384, .i32⟩
  | .hbm, ⟨23, _⟩ => ⟨S_, .i32⟩
  | .hbm, ⟨24, _⟩ => ⟨S8x2048x16384, .i32⟩
  | .hbm, ⟨25, _⟩ => ⟨S8x2048x16384, .i32⟩
  | .hbm, ⟨26, _⟩ => ⟨S8x2048x16384, .i32⟩
  | .hbm, ⟨27, _⟩ => ⟨S8x2048x16384, .i32⟩
  | .hbm, ⟨28, _⟩ => ⟨S8x2048x64, .i32⟩
  | .hbm, ⟨29, _⟩ => ⟨S8x2048x1, .i32⟩
  | .hbm, ⟨30, _⟩ => ⟨S_, .i32⟩
  | .hbm, ⟨31, _⟩ => ⟨S8x2048x1, .i32⟩
  | .hbm, ⟨32, _⟩ => ⟨S8x2048x1, .i1⟩
  | .hbm, ⟨33, _⟩ => ⟨S_, .i32⟩
  | .hbm, ⟨34, _⟩ => ⟨S_, .i32⟩
  | .hbm, ⟨35, _⟩ => ⟨S8x2048x1, .i32⟩
  | .hbm, ⟨36, _⟩ => ⟨S8x2048x1, .i32⟩
  | .hbm, ⟨37, _⟩ => ⟨S_, .i32⟩
  | .hbm, ⟨38, _⟩ => ⟨S8x2048x64, .i32⟩
  | .hbm, ⟨39, _⟩ => ⟨S8x2048x64, .i1⟩
  | .hbm, ⟨40, _⟩ => ⟨S8x2048x64, .i32⟩
  | .hbm, ⟨41, _⟩ => ⟨S8x2048x64, .i32⟩
  | .hbm, ⟨42, _⟩ => ⟨S8x16384x3, .bf16⟩
  | .hbm, ⟨43, _⟩ => ⟨S8x16384x128, .bf16⟩
  | .hbm, ⟨44, _⟩ => ⟨S8x2048x64x3, .f32⟩
  | .hbm, ⟨45, _⟩ => ⟨S8x2048x64x128, .f32⟩
  | .hbm, ⟨46, _⟩ => ⟨S8x2048x64x131, .f32⟩
  | .local _ .vmem, ⟨0, _⟩ => ⟨S1x128x64, .i32⟩
  | .local _ .vmem, ⟨1, _⟩ => ⟨S1x128x64, .i32⟩
  | .local _ .vmem, ⟨2, _⟩ => ⟨S1x256x3, .bf16⟩
  | .local _ .vmem, ⟨3, _⟩ => ⟨S1x256x3, .bf16⟩
  | .local _ .vmem, ⟨4, _⟩ => ⟨S1x256x128, .bf16⟩
  | .local _ .vmem, ⟨5, _⟩ => ⟨S1x256x128, .bf16⟩
  | .local _ .vmem, ⟨6, _⟩ => ⟨S1x128x3, .f32⟩
  | .local _ .vmem, ⟨7, _⟩ => ⟨S1x128x3, .f32⟩
  | .local _ .vmem, ⟨8, _⟩ => ⟨S1x128x64x3, .f32⟩
  | .local _ .vmem, ⟨9, _⟩ => ⟨S1x128x64x3, .f32⟩
  | .local _ .vmem, ⟨10, _⟩ => ⟨S1x128x64x128, .f32⟩
  | .local _ .vmem, ⟨11, _⟩ => ⟨S1x128x64x128, .f32⟩
  | .local _ .vmem, ⟨12, _⟩ => ⟨S128x64x128, .f32⟩
  | .local _ .vmem, ⟨13, _⟩ => ⟨S128x64x3, .f32⟩
  | _, _ => ⟨S8x16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_call0_v0 : Ref sig .tc := ⟨.hbm, 24, rfl⟩
abbrev main_call0_v1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_call2_v0 : Ref sig .tc := ⟨.hbm, 34, rfl⟩
abbrev main_call2_v1 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_v24 : Ref sig .tc := ⟨.hbm, 39, rfl⟩
abbrev main_call3_v0 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28_0 : Ref sig .tc := ⟨.hbm, 44, rfl⟩
abbrev main_v28_1 : Ref sig .tc := ⟨.hbm, 45, rfl⟩
abbrev main_v29 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 16, 64], ![false, false, false]⟩

def k0_cond2 (i : grid0.Coords) : BitVec 1 :=
  let arg2 : BitVec 32 := BitVec.ofNat 32 (i 2).val
  let c63_i32 : BitVec 32 := 63#32
  let v35 : BitVec 1 := Scalar.cmpi .eq arg2 c63_i32
  let v36 : BitVec 32 := Scalar.extui v35
  let c0_i32_22 : BitVec 32 := 0#32
  let v37 : BitVec 1 := Scalar.cmpi .ne v36 c0_i32_22
  v37

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x128x64 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x256x3 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x128x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x128x64x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x128x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  reducesTo_S8x16384x3_S8x16384_d2 : S8x16384x3.ReducesTo [2] S8x16384
  h_S_ : 0 < S_.numel
  reducesTo_S8x2048x3_S8x2048_d2 : S8x2048x3.ReducesTo [2] S8x2048
  bcast_S8x2048_S8x2048x1_0_1 : S8x2048.BroadcastsInDim S8x2048x1 (![0, 1] : Fin 2 → Fin S8x2048x1.rank)
  bcast_S8x16384_S8x1x16384_0_2 : S8x16384.BroadcastsInDim S8x1x16384 (![0, 2] : Fin 2 → Fin S8x1x16384.rank)
  bcast_S8x2048x1_S8x2048x16384_0_1_2 : S8x2048x1.BroadcastsInDim S8x2048x16384 (![0, 1, 2] : Fin 3 → Fin S8x2048x16384.rank)
  bcast_S8x1x16384_S8x2048x16384_0_1_2 : S8x1x16384.BroadcastsInDim S8x2048x16384 (![0, 1, 2] : Fin 3 → Fin S8x2048x16384.rank)
  bcast_S_S8x2048x16384 : S_.BroadcastsInDim S8x2048x16384 (![] : Fin 0 → Fin S8x2048x16384.rank)
  bcast_S16384_S8x2048x16384_2 : S16384.BroadcastsInDim S8x2048x16384 (![2] : Fin 1 → Fin S8x2048x16384.rank)
  slices_S8x2048x16384_S8x2048x64_0_0_0 : S8x2048x16384.Slices ![0, 0, 0] S8x2048x64
  slices_S8x2048x64_S8x2048x1_0_0_0 : S8x2048x64.Slices ![0, 0, 0] S8x2048x1
  bcast_S_S8x2048x1 : S_.BroadcastsInDim S8x2048x1 (![] : Fin 0 → Fin S8x2048x1.rank)
  bcast_S_S8x2048x64 : S_.BroadcastsInDim S8x2048x64 (![] : Fin 0 → Fin S8x2048x64.rank)
  bcast_S8x2048x1_S8x2048x64_0_1_2 : S8x2048x1.BroadcastsInDim S8x2048x64 (![0, 1, 2] : Fin 3 → Fin S8x2048x64.rank)
  bitsLt_bf16_f32 : FTy.bits .bf16 < FTy.bits .f32
  inb_S128x64x128_S128x64x128_0_0_0 : ∀ a, (![0, 0, 0] : Fin 3 → Nat) a + S128x64x128.size a ≤ S128x64x128.size a
  h_S128x64x128 : 0 < S128x64x128.numel
  shapeCasts_S128x64x128_S128x64x128 : S128x64x128.ShapeCasts S128x64x128
  inb_S128x64x3_S128x64x3_0_0_0 : ∀ a, (![0, 0, 0] : Fin 3 → Nat) a + S128x64x3.size a ≤ S128x64x3.size a
  h_S128x64x3 : 0 < S128x64x3.numel
  shapeCasts_S128x64x3_S128x64x3 : S128x64x3.ShapeCasts S128x64x3
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  iota_S1x1x256_d2_w32 : S1x1x256.Iotas .tc 32 [2]
  shapeCasts_S128x64_S128x64x1 : S128x64.ShapeCasts S128x64x1
  broadcasts_S128x64x1_S128x64x256 : S128x64x1.Broadcasts S128x64x256
  broadcasts_S1x1x256_S128x64x256 : S1x1x256.Broadcasts S128x64x256
  natLt_1_32 : 1 < 32
  shapeCasts_S128x64x256_S8192x256 : S128x64x256.ShapeCasts S8192x256
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S1x256x3_S1x256x3_0_0_0 : ∀ a, (![0, 0, 0] : Fin 3 → Nat) a + S1x256x3.size a ≤ S1x256x3.size a
  h_S1x256x3 : 0 < S1x256x3.numel
  shapeCasts_S1x256x3_S256x3 : S1x256x3.ShapeCasts S256x3
  shapeCasts_S8192x128_S128x64x128 : S8192x128.ShapeCasts S128x64x128
  shapeCasts_S8192x3_S128x64x3 : S8192x3.ShapeCasts S128x64x3
  inb_S1x128x3_S1x128x3_0_0_0 : ∀ a, (![0, 0, 0] : Fin 3 → Nat) a + S1x128x3.size a ≤ S1x128x3.size a
  h_S1x128x3 : 0 < S1x128x3.numel
  shapeCasts_S1x128x3_S128x3 : S1x128x3.ShapeCasts S128x3
  shapeCasts_S128x3_S128x1x3 : S128x3.ShapeCasts S128x1x3
  broadcasts_S128x1x3_S128x64x3 : S128x1x3.Broadcasts S128x64x3
  inb_S1x128x64x3_S1x128x64x3_0_0_0_0 : ∀ a, (![0, 0, 0, 0] : Fin 4 → Nat) a + S1x128x64x3.size a ≤ S1x128x64x3.size a
  h_S1x128x64x3 : 0 < S1x128x64x3.numel
  shapeCasts_S1x128x64x3_S128x64x3 : S1x128x64x3.ShapeCasts S128x64x3
  shapeCasts_S128x64x3_S1x128x64x3 : S128x64x3.ShapeCasts S1x128x64x3
  inb_S1x128x64x128_S1x128x64x128_0_0_0_0 : ∀ a, (![0, 0, 0, 0] : Fin 4 → Nat) a + S1x128x64x128.size a ≤ S1x128x64x128.size a
  h_S1x128x64x128 : 0 < S1x128x64x128.numel
  shapeCasts_S1x128x64x128_S128x64x128 : S1x128x64x128.ShapeCasts S128x64x128
  shapeCasts_S128x64x128_S1x128x64x128 : S128x64x128.ShapeCasts S1x128x64x128
  concatenates_S8x2048x64x3_S8x2048x64x128_S8x2048x64x131_d3 : Shape.Concatenates [S8x2048x64x3, S8x2048x64x128] S8x2048x64x131 3
  dot_S8x2048x3_S8x16384x3_S8x2048x16384_2_2_1_1_0_0_wf : DotDims.WF S8x2048x3 S8x16384x3 S8x2048x16384 [2] [2] [1] [1] [0] [0]
  dot_S8192x256_S256x128_S8192x128_1_0_0_1_n_n_wf : DotDims.WF S8192x256 S256x128 S8192x128 [1] [0] [0] [1] [] []
  dot_S8192x256_S256x3_S8192x3_1_0_0_1_n_n_wf : DotDims.WF S8192x256 S256x3 S8192x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x64.size a ≤ S8x2048x64.size a
  hwx0_0 : ∀ i : grid0.Coords, EltTy.bits .i32 = 32 ∨ (Rect.block (s := S8x2048x64) S1x128x64.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x3.size a ≤ S8x16384x3.size a
  hwx0_1 : ∀ i : grid0.Coords, EltTy.bits .bf16 = 32 ∨ (Rect.block (s := S8x16384x3) S1x256x3.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x128.size a ≤ S8x16384x128.size a
  hwx0_2 : ∀ i : grid0.Coords, EltTy.bits .bf16 = 32 ∨ (Rect.block (s := S8x16384x128) S1x256x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x3.size a ≤ S8x2048x3.size a
  hwx0_3 : ∀ i : grid0.Coords, EltTy.bits .f32 = 32 ∨ (Rect.block (s := S8x2048x3) S1x128x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x64x3.size a ≤ S8x2048x64x3.size a
  hwx0_4 : ∀ i : grid0.Coords, EltTy.bits .f32 = 32 ∨ (Rect.block (s := S8x2048x64x3) S1x128x64x3.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x64x128.size a ≤ S8x2048x64x128.size a
  hwx0_5 : ∀ i : grid0.Coords, EltTy.bits .f32 = 32 ∨ (Rect.block (s := S8x2048x64x128) S1x128x64x128.size (cc0_transform_5 i) (hinb0_5 i)).WholeWords (EltTy.packing .f32)

variable [Facts₀]

def dot_S8x2048x3_S8x16384x3_S8x2048x16384_2_2_1_1_0_0 : DotDims S8x2048x3 S8x16384x3 S8x2048x16384 where
  lhsContracting := [2]
  rhsContracting := [2]
  lhsNonContracting := [1]
  rhsNonContracting := [1]
  lhsBatch := [0]
  rhsBatch := [0]
  wf := dot_S8x2048x3_S8x16384x3_S8x2048x16384_2_2_1_1_0_0_wf
def comparator_i32_d2 : BitVec 32 → BitVec 32 → BitVec 1 :=
  fun l r =>
    let v1 := IntOp.cmpi .slt l r
    v1
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x256_S256x3_S8192x3_1_0_0_1_n_n : DotDims S8192x256 S256x3 S8192x3 where
  lhsContracting := [1]
  rhsContracting := [0]
  lhsNonContracting := [0]
  rhsNonContracting := [1]
  lhsBatch := []
  rhsBatch := []
  wf := dot_S8192x256_S256x3_S8192x3_1_0_0_1_n_n_wf

abbrev win0_0 : Pipeline.Window sig grid0 :=
  Pipeline.Window.ofSpec (Memref.whole main_v25) S1x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S1x256x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S1x256x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x128x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v28_0) S1x128x64x3.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v28_1) S1x128x64x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8x16384x3 : Shape := ⟨3, ![8, 16384, 3]⟩
abbrev S8x2048x3 : Shape := ⟨3, ![8, 2048, 3]⟩
abbrev S8x16384x128 : Shape := ⟨3, ![8, 16384, 128]⟩
abbrev S_ : Shape := ⟨0, ![]⟩
abbrev S8x16384 : Shape := ⟨2, ![8, 16384]⟩
abbrev S8x2048 : Shape := ⟨2, ![8, 2048]⟩
abbrev S8x2048x1 : Shape := ⟨3, ![8, 2048, 1]⟩
abbrev S8x1x16384 : Shape := ⟨3, ![8, 1, 16384]⟩
abbrev S8x2048x16384 : Shape := ⟨3, ![8, 2048, 16384]⟩
abbrev S16384 : Shape := ⟨1, ![16384]⟩
abbrev S8x2048x64 : Shape := ⟨3, ![8, 2048, 64]⟩
abbrev S8x2048x64x1 : Shape := ⟨4, ![8, 2048, 64, 1]⟩
abbrev S8x2048x64x3 : Shape := ⟨4, ![8, 2048, 64, 3]⟩
abbrev S8x2048x1x3 : Shape := ⟨4, ![8, 2048, 1, 3]⟩
abbrev S8x2048x64x128 : Shape := ⟨4, ![8, 2048, 64, 128]⟩
abbrev S8x2048x64x131 : Shape := ⟨4, ![8, 2048, 64, 131]⟩

abbrev nBuf : Space → Nat
  | .hbm => 67
  | .vmem => 0
  | .smem => 0
  | _ => 0

abbrev bufTy : (tb : Table) → Fin (tcTables nBuf tb) → BufTy
  | .hbm, ⟨0, _⟩ => ⟨S8x16384x3, .f32⟩
  | .hbm, ⟨1, _⟩ => ⟨S8x2048x3, .f32⟩
  | .hbm, ⟨2, _⟩ => ⟨S8x16384x128, .f32⟩
  | .hbm, ⟨3, _⟩ => ⟨S8x16384x3, .f32⟩
  | .hbm, ⟨4, _⟩ => ⟨S_, .f32⟩
  | .hbm, ⟨5, _⟩ => ⟨S8x16384, .f32⟩
  | .hbm, ⟨6, _⟩ => ⟨S8x2048x3, .f32⟩
  | .hbm, ⟨7, _⟩ => ⟨S_, .f32⟩
  | .hbm, ⟨8, _⟩ => ⟨S8x2048, .f32⟩
  | .hbm, ⟨9, _⟩ => ⟨S8x2048x1, .f32⟩
  | .hbm, ⟨10, _⟩ => ⟨S8x1x16384, .f32⟩
  | .hbm, ⟨11, _⟩ => ⟨S8x2048x16384, .f32⟩
  | .hbm, ⟨12, _⟩ => ⟨S8x2048x16384, .f32⟩
  | .hbm, ⟨13, _⟩ => ⟨S8x2048x16384, .f32⟩
  | .hbm, ⟨14, _⟩ => ⟨S8x2048x16384, .f32⟩
  | .hbm, ⟨15, _⟩ => ⟨S_, .f32⟩
  | .hbm, ⟨16, _⟩ => ⟨S8x2048x16384, .f32⟩
  | .hbm, ⟨17, _⟩ => ⟨S8x2048x16384, .f32⟩
  | .hbm, ⟨18, _⟩ => ⟨S8x2048x16384, .f32⟩
  | .hbm, ⟨19, _⟩ => ⟨S_, .f32⟩
  | .hbm, ⟨20, _⟩ => ⟨S8x2048x16384, .f32⟩
  | .hbm, ⟨21, _⟩ => ⟨S8x2048x16384, .i1⟩
  | .hbm, ⟨22, _⟩ => ⟨S16384, .i32⟩
  | .hbm, ⟨23, _⟩ => ⟨S_, .i32⟩
  | .hbm, ⟨24, _⟩ => ⟨S8x2048x16384, .i32⟩
  | .hbm, ⟨25, _⟩ => ⟨S8x2048x16384, .i32⟩
  | .hbm, ⟨26, _⟩ => ⟨S8x2048x16384, .i32⟩
  | .hbm, ⟨27, _⟩ => ⟨S8x2048x16384, .i32⟩
  | .hbm, ⟨28, _⟩ => ⟨S8x2048x64, .i32⟩
  | .hbm, ⟨29, _⟩ => ⟨S8x2048x1, .i32⟩
  | .hbm, ⟨30, _⟩ => ⟨S_, .i32⟩
  | .hbm, ⟨31, _⟩ => ⟨S8x2048x1, .i32⟩
  | .hbm, ⟨32, _⟩ => ⟨S8x2048x1, .i1⟩
  | .hbm, ⟨33, _⟩ => ⟨S_, .i32⟩
  | .hbm, ⟨34, _⟩ => ⟨S_, .i32⟩
  | .hbm, ⟨35, _⟩ => ⟨S8x2048x1, .i32⟩
  | .hbm, ⟨36, _⟩ => ⟨S8x2048x1, .i32⟩
  | .hbm, ⟨37, _⟩ => ⟨S_, .i32⟩
  | .hbm, ⟨38, _⟩ => ⟨S8x2048x64, .i32⟩
  | .hbm, ⟨39, _⟩ => ⟨S8x2048x64, .i1⟩
  | .hbm, ⟨40, _⟩ => ⟨S8x2048x64, .i32⟩
  | .hbm, ⟨41, _⟩ => ⟨S8x2048x64, .i32⟩
  | .hbm, ⟨42, _⟩ => ⟨S_, .i32⟩
  | .hbm, ⟨43, _⟩ => ⟨S8x2048x64, .i32⟩
  | .hbm, ⟨44, _⟩ => ⟨S8x2048x64, .i1⟩
  | .hbm, ⟨45, _⟩ => ⟨S_, .i32⟩
  | .hbm, ⟨46, _⟩ => ⟨S8x2048x64, .i32⟩
  | .hbm, ⟨47, _⟩ => ⟨S8x2048x64, .i32⟩
  | .hbm, ⟨48, _⟩ => ⟨S8x2048x64, .i32⟩
  | .hbm, ⟨49, _⟩ => ⟨S8x2048x64x1, .i32⟩
  | .hbm, ⟨50, _⟩ => ⟨S8x2048x64x3, .f32⟩
  | .hbm, ⟨51, _⟩ => ⟨S8x2048x1x3, .f32⟩
  | .hbm, ⟨52, _⟩ => ⟨S8x2048x64x3, .f32⟩
  | .hbm, ⟨53, _⟩ => ⟨S8x2048x64x3, .f32⟩
  | .hbm, ⟨54, _⟩ => ⟨S_, .f32⟩
  | .hbm, ⟨55, _⟩ => ⟨S8x2048x64x3, .f32⟩
  | .hbm, ⟨56, _⟩ => ⟨S8x2048x64x3, .f32⟩
  | .hbm, ⟨57, _⟩ => ⟨S_, .i32⟩
  | .hbm, ⟨58, _⟩ => ⟨S8x2048x64, .i32⟩
  | .hbm, ⟨59, _⟩ => ⟨S8x2048x64, .i1⟩
  | .hbm, ⟨60, _⟩ => ⟨S_, .i32⟩
  | .hbm, ⟨61, _⟩ => ⟨S8x2048x64, .i32⟩
  | .hbm, ⟨62, _⟩ => ⟨S8x2048x64, .i32⟩
  | .hbm, ⟨63, _⟩ => ⟨S8x2048x64, .i32⟩
  | .hbm, ⟨64, _⟩ => ⟨S8x2048x64x1, .i32⟩
  | .hbm, ⟨65, _⟩ => ⟨S8x2048x64x128, .f32⟩
  | .hbm, ⟨66, _⟩ => ⟨S8x2048x64x131, .f32⟩
  | _, _ => ⟨S8x16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_c : Ref sig .tc := ⟨.hbm, 23, rfl⟩
abbrev main_call0_v0 : Ref sig .tc := ⟨.hbm, 24, rfl⟩
abbrev main_call0_v1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_3 : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_call2_v0 : Ref sig .tc := ⟨.hbm, 34, rfl⟩
abbrev main_call2_v1 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_v24 : Ref sig .tc := ⟨.hbm, 39, rfl⟩
abbrev main_call3_v0 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_c_7 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_c_9 : Ref sig .tc := ⟨.hbm, 57, rfl⟩
abbrev main_v38 : Ref sig .tc := ⟨.hbm, 58, rfl⟩
abbrev main_v39 : Ref sig .tc := ⟨.hbm, 59, rfl⟩
abbrev main_c_10 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩

abbrev nD : Nat := 1
abbrev τ : Topo := Topo.v7x

variable {F : FTy → Type} [FloatOps F]

class Facts₀ : Prop where
  reducesTo_S8x16384x3_S8x16384_d2 : S8x16384x3.ReducesTo [2] S8x16384
  h_S_ : 0 < S_.numel
  reducesTo_S8x2048x3_S8x2048_d2 : S8x2048x3.ReducesTo [2] S8x2048
  bcast_S8x2048_S8x2048x1_0_1 : S8x2048.BroadcastsInDim S8x2048x1 (![0, 1] : Fin 2 → Fin S8x2048x1.rank)
  bcast_S8x16384_S8x1x16384_0_2 : S8x16384.BroadcastsInDim S8x1x16384 (![0, 2] : Fin 2 → Fin S8x1x16384.rank)
  bcast_S8x2048x1_S8x2048x16384_0_1_2 : S8x2048x1.BroadcastsInDim S8x2048x16384 (![0, 1, 2] : Fin 3 → Fin S8x2048x16384.rank)
  bcast_S8x1x16384_S8x2048x16384_0_1_2 : S8x1x16384.BroadcastsInDim S8x2048x16384 (![0, 1, 2] : Fin 3 → Fin S8x2048x16384.rank)
  bcast_S_S8x2048x16384 : S_.BroadcastsInDim S8x2048x16384 (![] : Fin 0 → Fin S8x2048x16384.rank)
  bcast_S16384_S8x2048x16384_2 : S16384.BroadcastsInDim S8x2048x16384 (![2] : Fin 1 → Fin S8x2048x16384.rank)
  slices_S8x2048x16384_S8x2048x64_0_0_0 : S8x2048x16384.Slices ![0, 0, 0] S8x2048x64
  slices_S8x2048x64_S8x2048x1_0_0_0 : S8x2048x64.Slices ![0, 0, 0] S8x2048x1
  bcast_S_S8x2048x1 : S_.BroadcastsInDim S8x2048x1 (![] : Fin 0 → Fin S8x2048x1.rank)
  bcast_S_S8x2048x64 : S_.BroadcastsInDim S8x2048x64 (![] : Fin 0 → Fin S8x2048x64.rank)
  bcast_S8x2048x1_S8x2048x64_0_1_2 : S8x2048x1.BroadcastsInDim S8x2048x64 (![0, 1, 2] : Fin 3 → Fin S8x2048x64.rank)
  bcast_S8x2048x64_S8x2048x64x1_0_1_2 : S8x2048x64.BroadcastsInDim S8x2048x64x1 (![0, 1, 2] : Fin 3 → Fin S8x2048x64x1.rank)
  bcast_S8x2048x3_S8x2048x1x3_0_1_3 : S8x2048x3.BroadcastsInDim S8x2048x1x3 (![0, 1, 3] : Fin 3 → Fin S8x2048x1x3.rank)
  bcast_S8x2048x1x3_S8x2048x64x3_0_1_2_3 : S8x2048x1x3.BroadcastsInDim S8x2048x64x3 (![0, 1, 2, 3] : Fin 4 → Fin S8x2048x64x3.rank)
  bcast_S_S8x2048x64x3 : S_.BroadcastsInDim S8x2048x64x3 (![] : Fin 0 → Fin S8x2048x64x3.rank)
  concatenates_S8x2048x64x3_S8x2048x64x128_S8x2048x64x131_d3 : Shape.Concatenates [S8x2048x64x3, S8x2048x64x128] S8x2048x64x131 3
  dot_S8x2048x3_S8x16384x3_S8x2048x16384_2_2_1_1_0_0_wf : DotDims.WF S8x2048x3 S8x16384x3 S8x2048x16384 [2] [2] [1] [1] [0] [0]
  gather_S8x16384x3_S8x2048x64x1_S8x2048x64x3_3_1_0_0_1_3_113_wf : GatherDims.WF S8x16384x3 S8x2048x64x1 S8x2048x64x3 [3] [1] [0] [1] [0] 3 ![1, 1, 3]
  gather_S8x16384x128_S8x2048x64x1_S8x2048x64x128_3_1_0_0_1_3_11128_wf : GatherDims.WF S8x16384x128 S8x2048x64x1 S8x2048x64x128 [3] [1] [0] [1] [0] 3 ![1, 1, 128]

variable [Facts₀]

def dot_S8x2048x3_S8x16384x3_S8x2048x16384_2_2_1_1_0_0 : DotDims S8x2048x3 S8x16384x3 S8x2048x16384 where
  lhsContracting := [2]
  rhsContracting := [2]
  lhsNonContracting := [1]
  rhsNonContracting := [1]
  lhsBatch := [0]
  rhsBatch := [0]
  wf := dot_S8x2048x3_S8x16384x3_S8x2048x16384_2_2_1_1_0_0_wf
def comparator_i32_d2 : BitVec 32 → BitVec 32 → BitVec 1 :=
  fun l r =>
    let v1 := IntOp.cmpi .slt l r
    v1
def gather_S8x16384x3_S8x2048x64x1_S8x2048x64x3_3_1_0_0_1_3_113 : GatherDims S8x16384x3 S8x2048x64x1 S8x2048x64x3 where
  offsetDims := [3]
  collapsedSliceDims := [1]
  operandBatchingDims := [0]
  startIndicesBatchingDims := [0]
  startIndexMap := [1]
  indexVectorDim := 3
  sliceSizes := ![1, 1, 3]
  wf := gather_S8x16384x3_S8x2048x64x1_S8x2048x64x3_3_1_0_0_1_3_113_wf
def gather_S8x16384x128_S8x2048x64x1_S8x2048x64x128_3_1_0_0_1_3_11128 : GatherDims S8x16384x128 S8x2048x64x1 S8x2048x64x128 where
  offsetDims := [3]
  collapsedSliceDims := [1]
  operandBatchingDims := [0]
  startIndicesBatchingDims := [0]
  startIndexMap := [1]
  indexVectorDim := 3
  sliceSizes := ![1, 1, 128]
  wf := gather_S8x16384x128_S8x2048x64x1_S8x2048x64x128_3_1_0_0_1_3_11128_wf

class Facts : Prop extends Facts₀ where

variable [Facts]
-- ==== Proof.Pieces.lean ====
/-
  What each control case of the body leaves behind, as the body's own arithmetic.

  The body has three cases. At a query tile's first chunk it clears both accumulators and then adds the chunk's
  one-hot product to each; at a middle chunk it adds the chunk's product to what the chunk before left; at the last
  chunk it does the same and then writes both outputs from the accumulators it has just updated. Each accumulator is
  stored whole, so what a case leaves in it is the value of its last store, and a load that follows a store of the
  same buffer reads that store's value.
-/
import proofs.«136894_j19550691131908_1_alg».proof.Proof.Gen.KernelIdeal.Frame
import Idealize.ShloMosaic.Lib.Pipeline.Value
import Idealize.ShloMosaic.Lib.Tactic

set_option maxRecDepth 16384

noncomputable section

namespace Cert.KernelIdeal.Hand

open Idealize.ShloMosaic Idealize.ShloMosaic.TcCoe Idealize.ShloMosaic.Tactic Idealize.SL.Sem Cert.KernelIdeal Cert.KernelIdeal.Gen

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The first chunk leaves, in the features accumulator, the cleared block plus the chunk's one-hot product. -/
theorem featAcc_A (c : Dev nD) (i : grid0.Coords) (arg3 : Memref sig .tc .vmem S1x128x64 .i32) (harg3 : arg3.IsWhole) (arg4 : Memref sig .tc .vmem S1x256x3 .bf16) (harg4 : arg4.IsWhole) (arg5 : Memref sig .tc .vmem S1x256x128 .bf16) (harg5 : arg5.IsWhole) (arg6 : Memref sig .tc .vmem S1x128x3 .f32) (harg6 : arg6.IsWhole) (arg7 : Memref sig .tc .vmem S1x128x64x3 .f32) (harg7 : arg7.IsWhole) (arg8 : Memref sig .tc .vmem S1x128x64x128 .f32) (harg8 : arg8.IsWhole) (arg9 : Memref sig .tc .vmem S128x64x128 .f32) (harg9 : arg9.IsWhole) (arg10 : Memref sig .tc .vmem S128x64x3 .f32) (harg10 : arg10.IsWhole) (hc0 : cond0_0 i) (hc1 : ¬cond0_1 i)
    (x0 : Vec F S1x128x64 .i32) (x1 : Vec F S1x256x3 .bf16) (x2 : Vec F S1x256x128 .bf16) (x3 : Vec F S1x128x3 .f32) :
    sout0_A_0 c i arg3 harg3 arg4 harg4 arg5 harg5 arg6 harg6 arg7 harg7 arg8 harg8 arg9 harg9 arg10 harg10 hc0 hc1 x0 x1 x2 x3 = k0_pay7 i x0 x2 (k0_pay4 (F := F)) := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S128x64x128) hz3, View.readCov_unit_zero (S := S128x64x128) _ hz3]
  simp only [View.readAt_eq_ld, harg3.read_unread, harg4.read_unread, harg5.read_unread, harg6.read_unread, harg7.read_unread, harg8.read_unread, harg9.read_unread, harg10.read_unread, View.ld_unit_zero (S := S128x64x128) hz3, View.ld_unit_zero (S := S128x64x3) hz3, View.ld_unit_zero (S := S1x128x64) hz3, View.ld_unit_zero (S := S1x256x3) hz3, View.ld_unit_zero (S := S1x256x128) hz3, View.ld_unit_zero (S := S1x128x3) hz3, View.readCov_unit_zero (S := S128x64x128) _ hz3, View.readCov_unit_zero (S := S128x64x3) _ hz3]

/-- The first chunk leaves, in the coordinates accumulator, the cleared block plus the chunk's one-hot product. -/
theorem xyzAcc_A (c : Dev nD) (i : grid0.Coords) (arg3 : Memref sig .tc .vmem S1x128x64 .i32) (harg3 : arg3.IsWhole) (arg4 : Memref sig .tc .vmem S1x256x3 .bf16) (harg4 : arg4.IsWhole) (arg5 : Memref sig .tc .vmem S1x256x128 .bf16) (harg5 : arg5.IsWhole) (arg6 : Memref sig .tc .vmem S1x128x3 .f32) (harg6 : arg6.IsWhole) (arg7 : Memref sig .tc .vmem S1x128x64x3 .f32) (harg7 : arg7.IsWhole) (arg8 : Memref sig .tc .vmem S1x128x64x128 .f32) (harg8 : arg8.IsWhole) (arg9 : Memref sig .tc .vmem S128x64x128 .f32) (harg9 : arg9.IsWhole) (arg10 : Memref sig .tc .vmem S128x64x3 .f32) (harg10 : arg10.IsWhole) (hc0 : cond0_0 i) (hc1 : ¬cond0_1 i)
    (x0 : Vec F S1x128x64 .i32) (x1 : Vec F S1x256x3 .bf16) (x2 : Vec F S1x256x128 .bf16) (x3 : Vec F S1x128x3 .f32) :
    sout0_A_1 c i arg3 harg3 arg4 harg4 arg5 harg5 arg6 harg6 arg7 harg7 arg8 harg8 arg9 harg9 arg10 harg10 hc0 hc1 x0 x1 x2 x3 = k0_pay1 (k0_pay8 i x0 x1 (k0_pay5 (F := F))) := by
  unfold sout0_A_1
  rw [View.read_writes_eq_canon _ _ _ (scover0_A_1 c i arg3 harg3 arg4 harg4 arg5 harg5 arg6 harg6 arg7 harg7 arg8 harg8 arg9 harg9 arg10 harg10 hc0 hc1 x0 x1 x2 x3)]
  unfold kernelRun0_A
  dsimp only
  sl_unfold_words
  rw [View.canon_cons_unit_zero (S := S128x64x3) hz3, View.readCov_unit_zero (S := S128x64x3) _ hz3]
  simp only [View.readAt_eq_ld, harg3.read_unread, harg4.read_unread, harg5.read_unread, harg6.read_unread, harg7.read_unread, harg8.read_unread, harg9.read_unread, harg10.read_unread, View.ld_unit_zero (S := S128x64x128) hz3, View.ld_unit_zero (S := S128x64x3) hz3, View.ld_unit_zero (S := S1x128x64) hz3, View.ld_unit_zero (S := S1x256x3) hz3, View.ld_unit_zero (S := S1x256x128) hz3, View.ld_unit_zero (S := S1x128x3) hz3, View.readCov_unit_zero (S := S128x64x128) _ hz3, View.readCov_unit_zero (S := S128x64x3) _ hz3]

/-- A middle chunk leaves, in the features accumulator holding `xs0`, `xs0` plus the chunk's one-hot product. -/
theorem featAcc_B (c : Dev nD) (i : grid0.Coords) (arg3 : Memref sig .tc .vmem S1x128x64 .i32) (harg3 : arg3.IsWhole) (arg4 : Memref sig .tc .vmem S1x256x3 .bf16) (harg4 : arg4.IsWhole) (arg5 : Memref sig .tc .vmem S1x256x128 .bf16) (harg5 : arg5.IsWhole) (arg6 : Memref sig .tc .vmem S1x128x3 .f32) (harg6 : arg6.IsWhole) (arg7 : Memref sig .tc .vmem S1x128x64x3 .f32) (harg7 : arg7.IsWhole) (arg8 : Memref sig .tc .vmem S1x128x64x128 .f32) (harg8 : arg8.IsWhole) (arg9 : Memref sig .tc .vmem S128x64x128 .f32) (harg9 : arg9.IsWhole) (arg10 : Memref sig .tc .vmem S128x64x3 .f32) (harg10 : arg10.IsWhole) (hc0 : ¬cond0_0 i) (hc1 : ¬cond0_1 i)
    (x0 : Vec F S1x128x64 .i32) (x1 : Vec F S1x256x3 .bf16) (x2 : Vec F S1x256x128 .bf16) (x3 : Vec F S1x128x3 .f32) (xs0 : Vec F S128x64x128 .f32) (xs1 : Vec F S128x64x3 .f32) :
    sout0_B_0 c i arg3 harg3 arg4 harg4 arg5 harg5 arg6 harg6 arg7 harg7 arg8 harg8 arg9 harg9 arg10 harg10 hc0 hc1 x0 x1 x2 x3 xs0 xs1 = k0_pay7 i x0 x2 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 xs0 xs1)]
  unfold kernelRun0_B
  dsimp only
  sl_unfold_words
  rw [View.canon_unit_zero hz3]
  simp only [View.readAt_eq_ld, harg3.read_unread, harg4.read_unread, harg5.read_unread, harg6.read_unread, harg7.read_unread, harg8.read_unread, harg9.read_unread, harg10.read_unread, View.ld_unit_zero (S := S128x64x128) hz3, View.ld_unit_zero (S := S128x64x3) hz3, View.ld_unit_zero (S := S1x128x64) hz3, View.ld_unit_zero (S := S1x256x3) hz3, View.ld_unit_zero (S := S1x256x128) hz3, View.ld_unit_zero (S := S1x128x3) hz3, View.readCov_unit_zero (S := S128x64x128) _ hz3, View.readCov_unit_zero (S := S128x64x3) _ hz3]

/-- A middle chunk leaves, in the coordinates accumulator holding `xs1`, `xs1` plus the chunk's one-hot product. -/
theorem xyzAcc_B (c : Dev nD) (i : grid0.Coords) (arg3 : Memref sig .tc .vmem S1x128x64 .i32) (harg3 : arg3.IsWhole) (arg4 : Memref sig .tc .vmem S1x256x3 .bf16) (harg4 : arg4.IsWhole) (arg5 : Memref sig .tc .vmem S1x256x128 .bf16) (harg5 : arg5.IsWhole) (arg6 : Memref sig .tc .vmem S1x128x3 .f32) (harg6 : arg6.IsWhole) (arg7 : Memref sig .tc .vmem S1x128x64x3 .f32) (harg7 : arg7.IsWhole) (arg8 : Memref sig .tc .vmem S1x128x64x128 .f32) (harg8 : arg8.IsWhole) (arg9 : Memref sig .tc .vmem S128x64x128 .f32) (harg9 : arg9.IsWhole) (arg10 : Memref sig .tc .vmem S128x64x3 .f32) (harg10 : arg10.IsWhole) (hc0 : ¬cond0_0 i) (hc1 : ¬cond0_1 i)
    (x0 : Vec F S1x128x64 .i32) (x1 : Vec F S1x256x3 .bf16) (x2 : Vec F S1x256x128 .bf16) (x3 : Vec F S1x128x3 .f32) (xs0 : Vec F S128x64x128 .f32) (xs1 : Vec F S128x64x3 .f32) :
    sout0_B_1 c i arg3 harg3 arg4 harg4 arg5 harg5 arg6 harg6 arg7 harg7 arg8 harg8 arg9 harg9 arg10 harg10 hc0 hc1 x0 x1 x2 x3 xs0 xs1 = k0_pay1 (k0_pay8 i x0 x1 xs1) := by
  unfold sout0_B_1
  rw [View.read_writes_eq_canon _ _ _ (scover0_B_1 c i arg3 harg3 arg4 harg4 arg5 harg5 arg6 harg6 arg7 harg7 arg8 harg8 arg9 harg9 arg10 harg10 hc0 hc1 x0 x1 x2 x3 xs0 xs1)]
  unfold kernelRun0_B
  dsimp only
  sl_unfold_words
  rw [View.canon_unit_zero hz3]
  simp only [View.readAt_eq_ld, harg3.read_unread, harg4.read_unread, harg5.read_unread, harg6.read_unread, harg7.read_unread, harg8.read_unread, harg9.read_unread, harg10.read_unread, View.ld_unit_zero (S := S128x64x128) hz3, View.ld_unit_zero (S := S128x64x3) hz3, View.ld_unit_zero (S := S1x128x64) hz3, View.ld_unit_zero (S := S1x256x3) hz3, View.ld_unit_zero (S := S1x256x128) hz3, View.ld_unit_zero (S := S1x128x3) hz3, View.readCov_unit_zero (S := S128x64x128) _ hz3, View.readCov_unit_zero (S := S128x64x3) _ hz3]

/-- The last chunk updates the features accumulator as a middle chunk does. -/
theorem featAcc_C (c : Dev nD) (i : grid0.Coords) (arg3 : Memref sig .tc .vmem S1x128x64 .i32) (harg3 : arg3.IsWhole) (arg4 : Memref sig .tc .vmem S1x256x3 .bf16) (harg4 : arg4.IsWhole) (arg5 : Memref sig .tc .vmem S1x256x128 .bf16) (harg5 : arg5.IsWhole) (arg6 : Memref sig .tc .vmem S1x128x3 .f32) (harg6 : arg6.IsWhole) (arg7 : Memref sig .tc .vmem S1x128x64x3 .f32) (harg7 : arg7.IsWhole) (arg8 : Memref sig .tc .vmem S1x128x64x128 .f32) (harg8 : arg8.IsWhole) (arg9 : Memref sig .tc .vmem S128x64x128 .f32) (harg9 : arg9.IsWhole) (arg10 : Memref sig .tc .vmem S128x64x3 .f32) (harg10 : arg10.IsWhole) (hc0 : ¬cond0_0 i) (hc1 : cond0_1 i)
    (x0 : Vec F S1x128x64 .i32) (x1 : Vec F S1x256x3 .bf16) (x2 : Vec F S1x256x128 .bf16) (x3 : Vec F S1x128x3 .f32) (xs0 : Vec F S128x64x128 .f32) (xs1 : Vec F S128x64x3 .f32) :
    sout0_C_0 c i arg3 harg3 arg4 harg4 arg5 harg5 arg6 harg6 arg7 harg7 arg8 harg8 arg9 harg9 arg10 harg10 hc0 hc1 x0 x1 x2 x3 xs0 xs1 = k0_pay7 i x0 x2 xs0 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 xs0 xs1)]
  unfold kernelRun0_C
  dsimp only
  sl_unfold_words
  rw [View.canon_unit_zero hz3]
  simp only [View.readAt_eq_ld, harg3.read_unread, harg4.read_unread, harg5.read_unread, harg6.read_unread, harg7.read_unread, harg8.read_unread, harg9.read_unread, harg10.read_unread, View.ld_unit_zero (S := S128x64x128) hz3, View.ld_unit_zero (S := S128x64x3) hz3, View.ld_unit_zero (S := S1x128x64) hz3, View.ld_unit_zero (S := S1x256x3) hz3, View.ld_unit_zero (S := S1x256x128) hz3, View.ld_unit_zero (S := S1x128x3) hz3, View.readCov_unit_zero (S := S128x64x128) _ hz3, View.readCov_unit_zero (S := S128x64x3) _ hz3]

/-- The last chunk updates the coordinates accumulator as a middle chunk does. -/
theorem xyzAcc_C (c : Dev nD) (i : grid0.Coords) (arg3 : Memref sig .tc .vmem S1x128x64 .i32) (harg3 : arg3.IsWhole) (arg4 : Memref sig .tc .vmem S1x256x3 .bf16) (harg4 : arg4.IsWhole) (arg5 : Memref sig .tc .vmem S1x256x128 .bf16) (harg5 : arg5.IsWhole) (arg6 : Memref sig .tc .vmem S1x128x3 .f32) (harg6 : arg6.IsWhole) (arg7 : Memref sig .tc .vmem S1x128x64x3 .f32) (harg7 : arg7.IsWhole) (arg8 : Memref sig .tc .vmem S1x128x64x128 .f32) (harg8 : arg8.IsWhole) (arg9 : Memref sig .tc .vmem S128x64x128 .f32) (harg9 : arg9.IsWhole) (arg10 : Memref sig .tc .vmem S128x64x3 .f32) (harg10 : arg10.IsWhole) (hc0 : ¬cond0_0 i) (hc1 : cond0_1 i)
    (x0 : Vec F S1x128x64 .i32) (x1 : Vec F S1x256x3 .bf16) (x2 : Vec F S1x256x128 .bf16) (x3 : Vec F S1x128x3 .f32) (xs0 : Vec F S128x64x128 .f32) (xs1 : Vec F S128x64x3 .f32) :
    sout0_C_1 c i arg3 harg3 arg4 harg4 arg5 harg5 arg6 harg6 arg7 harg7 arg8 harg8 arg9 harg9 arg10 harg10 hc0 hc1 x0 x1 x2 x3 xs0 xs1 = k0_pay1 (k0_pay8 i x0 x1 xs1) := by
  unfold sout0_C_1
  rw [View.read_writes_eq_canon _ _ _ (scover0_C_1 c i arg3 harg3 arg4 harg4 arg5 harg5 arg6 harg6 arg7 harg7 arg8 harg8 arg9 harg9 arg10 harg10 hc0 hc1 x0 x1 x2 x3 xs0 xs1)]
  unfold kernelRun0_C
  dsimp only
  sl_unfold_words
  rw [View.canon_unit_zero hz3]
  simp only [View.readAt_eq_ld, harg3.read_unread, harg4.read_unread, harg5.read_unread, harg6.read_unread, harg7.read_unread, harg8.read_unread, harg9.read_unread, harg10.read_unread, View.ld_unit_zero (S := S128x64x128) hz3, View.ld_unit_zero (S := S128x64x3) hz3, View.ld_unit_zero (S := S1x128x64) hz3, View.ld_unit_zero (S := S1x256x3) hz3, View.ld_unit_zero (S := S1x256x128) hz3, View.ld_unit_zero (S := S1x128x3) hz3, View.readCov_unit_zero (S := S128x64x128) _ hz3, View.readCov_unit_zero (S := S128x64x3) _ hz3]

/-- The last chunk writes, as the features output block, the accumulator it has just updated. -/
theorem featOut_C (c : Dev nD) (i : grid0.Coords) (arg3 : Memref sig .tc .vmem S1x128x64 .i32) (harg3 : arg3.IsWhole) (arg4 : Memref sig .tc .vmem S1x256x3 .bf16) (harg4 : arg4.IsWhole) (arg5 : Memref sig .tc .vmem S1x256x128 .bf16) (harg5 : arg5.IsWhole) (arg6 : Memref sig .tc .vmem S1x128x3 .f32) (harg6 : arg6.IsWhole) (arg7 : Memref sig .tc .vmem S1x128x64x3 .f32) (harg7 : arg7.IsWhole) (arg8 : Memref sig .tc .vmem S1x128x64x128 .f32) (harg8 : arg8.IsWhole) (arg9 : Memref sig .tc .vmem S128x64x128 .f32) (harg9 : arg9.IsWhole) (arg10 : Memref sig .tc .vmem S128x64x3 .f32) (harg10 : arg10.IsWhole) (hc0 : ¬cond0_0 i) (hc1 : cond0_1 i)
    (x0 : Vec F S1x128x64 .i32) (x1 : Vec F S1x256x3 .bf16) (x2 : Vec F S1x256x128 .bf16) (x3 : Vec F S1x128x3 .f32) (xs0 : Vec F S128x64x128 .f32) (xs1 : Vec F S128x64x3 .f32) :
    out0_C_5 c i arg3 harg3 arg4 harg4 arg5 harg5 arg6 harg6 arg7 harg7 arg8 harg8 arg9 harg9 arg10 harg10 hc0 hc1 x0 x1 x2 x3 xs0 xs1 = k0_pay3 (k0_pay7 i x0 x2 xs0) := by
  unfold out0_C_5
  rw [View.read_writes_eq_canon _ _ _ (cover0_C_5 c i arg3 harg3 arg4 harg4 arg5 harg5 arg6 harg6 arg7 harg7 arg8 harg8 arg9 harg9 arg10 harg10 hc0 hc1 x0 x1 x2 x3 xs0 xs1)]
  unfold kernelRun0_C
  dsimp only
  sl_unfold_words
  rw [View.canon_unit_zero hz4]
  simp only [View.readAt_eq_ld, harg3.read_unread, harg4.read_unread, harg5.read_unread, harg6.read_unread, harg7.read_unread, harg8.read_unread, harg9.read_unread, harg10.read_unread, View.ld_unit_zero (S := S128x64x128) hz3, View.ld_unit_zero (S := S128x64x3) hz3, View.ld_unit_zero (S := S1x128x64) hz3, View.ld_unit_zero (S := S1x256x3) hz3, View.ld_unit_zero (S := S1x256x128) hz3, View.ld_unit_zero (S := S1x128x3) hz3, View.readCov_unit_zero (S := S128x64x128) _ hz3, View.readCov_unit_zero (S := S128x64x3) _ hz3]

/-- The last chunk writes, as the coordinates output block, the updated accumulator recentred at the queries and divided by the radius. -/
theorem xyzOut_C (c : Dev nD) (i : grid0.Coords) (arg3 : Memref sig .tc .vmem S1x128x64 .i32) (harg3 : arg3.IsWhole) (arg4 : Memref sig .tc .vmem S1x256x3 .bf16) (harg4 : arg4.IsWhole) (arg5 : Memref sig .tc .vmem S1x256x128 .bf16) (harg5 : arg5.IsWhole) (arg6 : Memref sig .tc .vmem S1x128x3 .f32) (harg6 : arg6.IsWhole) (arg7 : Memref sig .tc .vmem S1x128x64x3 .f32) (harg7 : arg7.IsWhole) (arg8 : Memref sig .tc .vmem S1x128x64x128 .f32) (harg8 : arg8.IsWhole) (arg9 : Memref sig .tc .vmem S128x64x128 .f32) (harg9 : arg9.IsWhole) (arg10 : Memref sig .tc .vmem S128x64x3 .f32) (harg10 : arg10.IsWhole) (hc0 : ¬cond0_0 i) (hc1 : cond0_1 i)
    (x0 : Vec F S1x128x64 .i32) (x1 : Vec F S1x256x3 .bf16) (x2 : Vec F S1x256x128 .bf16) (x3 : Vec F S1x128x3 .f32) (xs0 : Vec F S128x64x128 .f32) (xs1 : Vec F S128x64x3 .f32) :
    out0_C_4 c i arg3 harg3 arg4 harg4 arg5 harg5 arg6 harg6 arg7 harg7 arg8 harg8 arg9 harg9 arg10 harg10 hc0 hc1 x0 x1 x2 x3 xs0 xs1 = k0_pay2 x3 (k0_pay1 (k0_pay8 i x0 x1 xs1)) := by
  unfold out0_C_4
  rw [View.read_writes_eq_canon _ _ _ (cover0_C_4 c i arg3 harg3 arg4 harg4 arg5 harg5 arg6 harg6 arg7 harg7 arg8 harg8 arg9 harg9 arg10 harg10 hc0 hc1 x0 x1 x2 x3 xs0 xs1)]
  unfold kernelRun0_C
  dsimp only
  sl_unfold_words
  rw [View.canon_unit_zero hz4]
  simp only [View.readAt_eq_ld, harg3.read_unread, harg4.read_unread, harg5.read_unread, harg6.read_unread, harg7.read_unread, harg8.read_unread, harg9.read_unread, harg10.read_unread, View.ld_unit_zero (S := S128x64x128) hz3, View.ld_unit_zero (S := S128x64x3) hz3, View.ld_unit_zero (S := S1x128x64) hz3, View.ld_unit_zero (S := S1x256x3) hz3, View.ld_unit_zero (S := S1x256x128) hz3, View.ld_unit_zero (S := S1x128x3) hz3, View.readCov_unit_zero (S := S128x64x128) _ hz3, View.readCov_unit_zero (S := S128x64x3) _ hz3]

end Cert.KernelIdeal.Hand

end
-- ==== Proof.LibOneHot.lean ====
/-
  One-hot selection over the extended reals, and a pointwise property carried through a sort.

  A gather written as a matrix product: row `r` of the left factor is the indicator of one position, so the
  product's entry is the sum over positions `p` of `[v = p] · X p`, which is `X v` when `v` is one of the positions
  summed over and `0` otherwise (on the extended reals `0 · x = 0` and `1 · x = x` for every `x`, the infinities
  included, so nothing is asked of `X`). Summed chunk by chunk into an accumulator that starts at zero, the
  accumulator after the chunks below `B` is `X v` if `v < B` and `0` otherwise.

  A stable sort along an axis only permutes each fibre, so whatever holds of every entry of the operand holds of
  every entry of the result.
-/
import Idealize.ShloMosaic.PureOps.Ideal
import Idealize.ShloMosaic.PureOps.ShapeOps

noncomputable section

namespace Cert.Lib.OneHot

open Idealize.ShloMosaic

/-- Whatever holds of every entry of a sort's operand holds of every entry of its result: each result entry IS an
    operand entry (of the same fibre). -/
theorem sort_forall {s : Shape} {d : Nat} {α : Type} (cmp : α → α → BitVec 1) (x : s.Idx → α) (P : α → Prop)
    (h : ∀ i, P (x i)) (j : s.Idx) : P (Host.sort s d cmp x j) := by
  by_cases hd : d < s.rank
  · simp only [Host.sort, dif_pos hd]; exact h _
  · simp only [Host.sort, dif_neg hd]; exact h _

/-- The integer compare for equality answers `1` exactly at equal words. -/
theorem cmpi_eq_one_iff {w : Nat} (x y : BitVec w) : IntOp.cmpi .eq x y = 1#1 ↔ x = y := by
  unfold IntOp.cmpi
  by_cases h : x = y
  · subst h; simp
  · have hb : (x == y) = false := by simpa using h
    simp only [hb]
    constructor
    · intro e; exact absurd e (by decide)
    · intro e; exact absurd e h

/-- The equality bit of two 32-bit words, widened to 32 bits and read as a signed integer, is `1` or `0`. -/
theorem eqBit_toInt (x y : BitVec 32) : ((IntOp.cmpi .eq x y).setWidth 32).toInt = if x = y then 1 else 0 := by
  unfold IntOp.cmpi
  by_cases h : x = y
  · subst h; simp
  · have hb : (x == y) = false := by simpa using h
    show ((BitVec.ofBool (x == y)).setWidth 32).toInt = _
    rw [hb, if_neg h]
    decide

/-- THE ONE-HOT SUM. Over the `n` positions `o, …, o + n − 1`, the sum of `[v = position] · X position` is `X v` when
    `v` is one of them, else `0`. -/
theorem sum_onehot {n : ℕ} (v : BitVec 32) (o : ℕ) (ho : o + n ≤ 2 ^ 32) (X : ℕ → EReal) :
    ∑ j : Fin n, (if v = BitVec.ofNat 32 (o + j.val) then (1 : EReal) else 0) * X (o + j.val)
      = if o ≤ v.toNat ∧ v.toNat < o + n then X v.toNat else 0 := by
  have hne : ∀ j : Fin n, v.toNat ≠ o + j.val → v ≠ BitVec.ofNat 32 (o + j.val) := by
    intro j hj e
    apply hj
    have := congrArg BitVec.toNat e
    rw [BitVec.toNat_ofNat, Nat.mod_eq_of_lt (by have := j.isLt; omega)] at this
    exact this
  split
  · rename_i h
    rw [Finset.sum_eq_single (⟨v.toNat - o, by omega⟩ : Fin n)]
    · have e : o + (v.toNat - o) = v.toNat := by omega
      have hv : v = BitVec.ofNat 32 (o + (v.toNat - o)) := by
        rw [e]; apply BitVec.eq_of_toNat_eq; rw [BitVec.toNat_ofNat, Nat.mod_eq_of_lt v.isLt]
      rw [if_pos hv, one_mul, e]
    · intro j _ hj
      rw [if_neg (hne j (fun e => hj (Fin.ext (by simp only; omega)))), zero_mul]
    · intro h'; exact absurd (Finset.mem_univ _) h'
  · rename_i h
    refine Finset.sum_eq_zero fun j _ => ?_
    rw [if_neg (hne j (fun e => h (by have := j.isLt; omega))), zero_mul]

/-- ONE CHUNK MORE. The accumulator over the positions below `o`, plus the one-hot sum over the next `n`
    positions, is the accumulator over the positions below `o + n`. -/
theorem upto_add (v : BitVec 32) (o n : ℕ) (X : ℕ → EReal) :
    (if v.toNat < o then X v.toNat else 0) + (if o ≤ v.toNat ∧ v.toNat < o + n then X v.toNat else 0)
      = if v.toNat < o + n then X v.toNat else 0 := by
  by_cases h1 : v.toNat < o
  · rw [if_pos h1, if_neg (by omega), if_pos (by omega), add_zero]
  · by_cases h2 : v.toNat < o + n
    · rw [if_neg h1, if_pos ⟨by omega, h2⟩, if_pos h2, zero_add]
    · rw [if_neg h1, if_neg (by omega), if_neg h2, add_zero]

end Cert.Lib.OneHot

end
-- ==== Proof.Payload.lean ====
/-
  The kernel body's arithmetic, read at an index, at the ideal values (every float an extended real, every operation exact).

  The body gathers rows of a table by a one-hot matrix product, one chunk of 256 table rows per grid step. At chunk
  `n` (grid coordinate 2) the left factor has, in row `64 s + k` and column `j`, the indicator of
  `idx[s, k] = 256 n + j` as 0 or 1 (`pay6_apply`): the index block is cast [1,128,64] → [128,64] → [128,64,1] and
  broadcast along the lanes, the lane numbers 0 … 255 are shifted by `256 n` as 32-bit words (no wrap-around, since
  `256 n + j < 2^14`) and broadcast along the rows, the two are compared for equality, and the equality bit is widened,
  read as an integer and converted, which gives exactly 1 or 0; the rows (s, k) are then flattened in row-major order.
  The product with the chunk of the table, accumulated into a zero block, is at (64 s + k, d) the sum over the 256
  columns `j` of indicator times table entry (j, d); cast back to [128,64,C] and added to the running accumulator this
  is `pay7_apply` (features, C = 128) and `pay8_apply` (coordinates, C = 3). The remaining payloads are a cast to the
  same shape (`pay1_eq`), the zero blocks the accumulators start from (`pay4_apply`, `pay5_apply`), the features
  written out under a leading unit axis (`pay3_apply`), and the coordinates written out as
  (accumulator − centre of row s) / 0.2 under a leading unit axis (`pay2_apply`).
-/
import proofs.«136894_j19550691131908_1_alg».proof.Proof.Gen.KernelIdeal.Skeleton
import proofs.«136894_j19550691131908_1_alg».proof.Proof.LibOneHot
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Hand

open Idealize.ShloMosaic Idealize.ShloMosaic.ValueIdx Cert.KernelIdeal Cert.KernelIdeal.Gen

/-- The chunk offset added to a lane number, as 32-bit words: no wrap-around below 2^14. -/
theorem word_add (n j : Nat) (hn : n < 64) (hj : j < 256) :
    BitVec.ofNat 32 j + BitVec.ofNat 32 n * 256#32 = BitVec.ofNat 32 (256 * n + j) := by
  apply BitVec.eq_of_toNat_eq
  simp [BitVec.toNat_add, BitVec.toNat_mul, BitVec.toNat_ofNat]
  omega

/-- THE ONE-HOT MATRIX AT AN ENTRY: row `64 s + k`, column `j` is 1 when the index of (s, k) is `256 n + j`, else 0. -/
theorem pay6_apply (i : grid0.Coords) (v3 : Vec Ideal S1x128x64 .i32) (s : Fin 128) (k : Fin 64) (j : Fin 256) :
    k0_pay6 (F := Ideal) i v3 (ix2 (⟨64 * s.val + k.val, by omega⟩ : Fin 8192) j)
      = if v3 (ix3 (0 : Fin 1) s k) = BitVec.ofNat 32 (256 * (i 2).val + j.val) then (1 : EReal) else 0 := by
  have hi : (i 2).val < 64 := (i 2).isLt
  unfold k0_pay6
  refine (shapeCast_apply _ _ _ (ix3 s k j) ?_).trans ?_
  · rw [Shape.rowMajor_val_three, Shape.rowMajor_val_two]
    show (s.val * 64 + k.val) * 256 + j.val = (64 * s.val + k.val) * 256 + j.val
    omega
  -- the left operand of the compare: the index of row (s, k)
  have e10 : ∀ (h1 : S1x128x64.ShapeCasts S128x64) (h2 : S128x64.ShapeCasts S128x64x1) (h3 : S128x64x1.Broadcasts S128x64x256),
      broadcastTo S128x64x256 (shapeCast S128x64x1 (shapeCast S128x64 v3 h1) h2) h3 (ix3 s k j) = v3 (ix3 (0 : Fin 1) s k) := by
    intro h1 h2 h3
    refine (broadcastTo_apply _ _ _ (ix3 s k (0 : Fin 1)) fun a => ?_).trans ?_
    · match a with
      | ⟨0, _⟩ => rfl
      | ⟨1, _⟩ => rfl
      | ⟨2, _⟩ => rfl
    refine (shapeCast_apply _ _ _ (ix2 s k) ?_).trans ?_
    · rw [Shape.rowMajor_val_three, Shape.rowMajor_val_two]
      show s.val * 64 + k.val = (s.val * 64 + k.val) * 1 + 0
      omega
    exact shapeCast_1ab_ab_apply v3 h1 s k
  -- the right operand: the lane number plus the chunk offset
  have e11 : ∀ (h1 : S1x1x256.Iotas .tc 32 [2]) (h3 : S1x1x256.Broadcasts S128x64x256),
      broadcastTo S128x64x256 (addi (iota .tc S1x1x256 32 [2] h1) (broadcast S1x1x256 (Scalar.muli (BitVec.ofNat 32 (i 2).val) 256#32))) h3 (ix3 s k j)
        = BitVec.ofNat 32 (256 * (i 2).val + j.val) := by
    intro h1 h3
    refine (broadcastTo_apply _ _ _ (ix3 (0 : Fin 1) (0 : Fin 1) j) fun a => ?_).trans ?_
    · match a with
      | ⟨0, _⟩ => rfl
      | ⟨1, _⟩ => rfl
      | ⟨2, _⟩ => rfl
    show iota .tc S1x1x256 32 [2] h1 (ix3 (0 : Fin 1) (0 : Fin 1) j) + BitVec.ofNat 32 (i 2).val * 256#32 = _
    rw [iota_single_apply]
    exact word_add _ _ hi j.isLt
  show (((((IntOp.cmpi .eq (broadcastTo S128x64x256 _ _ (ix3 s k j)) (broadcastTo S128x64x256 _ _ (ix3 s k j))).setWidth 32).toInt : ℝ) : EReal)) = _
  rw [e10, e11, Cert.Lib.OneHot.eqBit_toInt]
  split <;> simp

/-! ## The two products' operand indices, axis by axis

Both products contract the left factor's axis 1 with the right factor's axis 0: at output index `o` and contraction
position `q` the left factor is read at (o 0, q) and the right at (q, o 1). -/

theorem lhs_f_0 (o : S8192x128.Idx) (q : dot_S8192x256_S256x128_S8192x128_1_0_0_1_n_n.contr.Idx) :
    (dot_S8192x256_S256x128_S8192x128_1_0_0_1_n_n.lhsIdx o q 0).val = (o 0).val := by
  unfold DotDims.lhsIdx
  rw [dif_neg (show ¬(0 : Fin S8192x256.rank) ∈ dot_S8192x256_S256x128_S8192x128_1_0_0_1_n_n.lhsBatch by decide), dif_pos (show (0 : Fin S8192x256.rank) ∈ dot_S8192x256_S256x128_S8192x128_1_0_0_1_n_n.lhsNonContracting by decide)]
  rfl
theorem lhs_f_1 (o : S8192x128.Idx) (q : dot_S8192x256_S256x128_S8192x128_1_0_0_1_n_n.contr.Idx) :
    (dot_S8192x256_S256x128_S8192x128_1_0_0_1_n_n.lhsIdx o q 1).val = (q ⟨0, by decide⟩).val :=
  dot_S8192x256_S256x128_S8192x128_1_0_0_1_n_n.lhsIdx_val_of_single rfl o q
theorem rhs_f_0 (o : S8192x128.Idx) (q : dot_S8192x256_S256x128_S8192x128_1_0_0_1_n_n.contr.Idx) :
    (dot_S8192x256_S256x128_S8192x128_1_0_0_1_n_n.rhsIdx o q 0).val = (q ⟨0, by decide⟩).val :=
  dot_S8192x256_S256x128_S8192x128_1_0_0_1_n_n.rhsIdx_val_of_single rfl o q
theorem rhs_f_1 (o : S8192x128.Idx) (q : dot_S8192x256_S256x128_S8192x128_1_0_0_1_n_n.contr.Idx) :
    (dot_S8192x256_S256x128_S8192x128_1_0_0_1_n_n.rhsIdx o q 1).val = (o 1).val := by
  unfold DotDims.rhsIdx
  rw [dif_neg (show ¬(1 : Fin S256x128.rank) ∈ dot_S8192x256_S256x128_S8192x128_1_0_0_1_n_n.rhsBatch by decide), dif_pos (show (1 : Fin S256x128.rank) ∈ dot_S8192x256_S256x128_S8192x128_1_0_0_1_n_n.rhsNonContracting by decide)]
  rfl

theorem lhs_c_0 (o : S8192x3.Idx) (q : dot_S8192x256_S256x3_S8192x3_1_0_0_1_n_n.contr.Idx) :
    (dot_S8192x256_S256x3_S8192x3_1_0_0_1_n_n.lhsIdx o q 0).val = (o 0).val := by
  unfold DotDims.lhsIdx
  rw [dif_neg (show ¬(0 : Fin S8192x256.rank) ∈ dot_S8192x256_S256x3_S8192x3_1_0_0_1_n_n.lhsBatch by decide), dif_pos (show (0 : Fin S8192x256.rank) ∈ dot_S8192x256_S256x3_S8192x3_1_0_0_1_n_n.lhsNonContracting by decide)]
  rfl
theorem lhs_c_1 (o : S8192x3.Idx) (q : dot_S8192x256_S256x3_S8192x3_1_0_0_1_n_n.contr.Idx) :
    (dot_S8192x256_S256x3_S8192x3_1_0_0_1_n_n.lhsIdx o q 1).val = (q ⟨0, by decide⟩).val :=
  dot_S8192x256_S256x3_S8192x3_1_0_0_1_n_n.lhsIdx_val_of_single rfl o q
theorem rhs_c_0 (o : S8192x3.Idx) (q : dot_S8192x256_S256x3_S8192x3_1_0_0_1_n_n.contr.Idx) :
    (dot_S8192x256_S256x3_S8192x3_1_0_0_1_n_n.rhsIdx o q 0).val = (q ⟨0, by decide⟩).val :=
  dot_S8192x256_S256x3_S8192x3_1_0_0_1_n_n.rhsIdx_val_of_single rfl o q
theorem rhs_c_1 (o : S8192x3.Idx) (q : dot_S8192x256_S256x3_S8192x3_1_0_0_1_n_n.contr.Idx) :
    (dot_S8192x256_S256x3_S8192x3_1_0_0_1_n_n.rhsIdx o q 1).val = (o 1).val := by
  unfold DotDims.rhsIdx
  rw [dif_neg (show ¬(1 : Fin S256x3.rank) ∈ dot_S8192x256_S256x3_S8192x3_1_0_0_1_n_n.rhsBatch by decide), dif_pos (show (1 : Fin S256x3.rank) ∈ dot_S8192x256_S256x3_S8192x3_1_0_0_1_n_n.rhsNonContracting by decide)]
  rfl

/-! ## The accumulators after one more chunk -/

/-- Features: the accumulator plus the one-hot sum over the chunk's 256 rows. -/
theorem pay7_apply (i : grid0.Coords) (v3 : Vec Ideal S1x128x64 .i32) (v17 : Vec Ideal S1x256x128 .bf16) (v23 : Vec Ideal S128x64x128 .f32)
    (s : Fin 128) (k : Fin 64) (d : Fin 128) :
    k0_pay7 (F := Ideal) i v3 v17 v23 (ix3 s k d)
      = v23 (ix3 s k d) + ∑ j : Fin 256, (if v3 (ix3 (0 : Fin 1) s k) = BitVec.ofNat 32 (256 * (i 2).val + j.val) then (1 : EReal) else 0) * v17 (ix3 (0 : Fin 1) j d) := by
  unfold k0_pay7
  rw [shapeCast_self]
  rw [addf_apply]
  refine congrArg (v23 (ix3 s k d) + ·) ?_
  refine (shapeCast_apply _ _ _ (ix2 (⟨64 * s.val + k.val, by omega⟩ : Fin 8192) d) ?_).trans ?_
  · rw [Shape.rowMajor_val_three, Shape.rowMajor_val_two]
    show (64 * s.val + k.val) * 128 + d.val = (s.val * 64 + k.val) * 128 + d.val
    omega
  simp only [matmul]
  rw [Ideal.matmul_constant_zero_apply, ← Equiv.sum_comp (ValueIdx.contrEquiv1 dot_S8192x256_S256x128_S8192x128_1_0_0_1_n_n 256 rfl rfl).symm]
  refine Finset.sum_congr rfl fun j _ => ?_
  have hk := ValueIdx.contrEquiv1_symm_val dot_S8192x256_S256x128_S8192x128_1_0_0_1_n_n 256 rfl rfl j
  have el : dot_S8192x256_S256x128_S8192x128_1_0_0_1_n_n.lhsIdx (ix2 (⟨64 * s.val + k.val, by omega⟩ : Fin 8192) d) ((ValueIdx.contrEquiv1 dot_S8192x256_S256x128_S8192x128_1_0_0_1_n_n 256 rfl rfl).symm j)
      = ix2 (⟨64 * s.val + k.val, by omega⟩ : Fin 8192) j := funext fun a => Fin.ext (by
    match a with
    | ⟨0, _⟩ => exact lhs_f_0 _ _
    | ⟨1, _⟩ => exact (lhs_f_1 _ _).trans hk)
  have er : dot_S8192x256_S256x128_S8192x128_1_0_0_1_n_n.rhsIdx (ix2 (⟨64 * s.val + k.val, by omega⟩ : Fin 8192) d) ((ValueIdx.contrEquiv1 dot_S8192x256_S256x128_S8192x128_1_0_0_1_n_n 256 rfl rfl).symm j)
      = ix2 j d := funext fun a => Fin.ext (by
    match a with
    | ⟨0, _⟩ => exact (rhs_f_0 _ _).trans hk
    | ⟨1, _⟩ => exact rhs_f_1 _ _)
  rw [el, er, pay6_apply, shapeCast_1ab_ab_apply]

/-- Coordinates: the same sum over the chunk's 256 rows, three columns wide. -/
theorem pay8_apply (i : grid0.Coords) (v3 : Vec Ideal S1x128x64 .i32) (v20 : Vec Ideal S1x256x3 .bf16) (v29 : Vec Ideal S128x64x3 .f32)
    (s : Fin 128) (k : Fin 64) (d : Fin 3) :
    k0_pay8 (F := Ideal) i v3 v20 v29 (ix3 s k d)
      = v29 (ix3 s k d) + ∑ j : Fin 256, (if v3 (ix3 (0 : Fin 1) s k) = BitVec.ofNat 32 (256 * (i 2).val + j.val) then (1 : EReal) else 0) * v20 (ix3 (0 : Fin 1) j d) := by
  unfold k0_pay8
  rw [addf_apply]
  refine congrArg (v29 (ix3 s k d) + ·) ?_
  refine (shapeCast_apply _ _ _ (ix2 (⟨64 * s.val + k.val, by omega⟩ : Fin 8192) d) ?_).trans ?_
  · rw [Shape.rowMajor_val_three, Shape.rowMajor_val_two]
    show (64 * s.val + k.val) * 3 + d.val = (s.val * 64 + k.val) * 3 + d.val
    omega
  simp only [matmul]
  rw [Ideal.matmul_constant_zero_apply, ← Equiv.sum_comp (ValueIdx.contrEquiv1 dot_S8192x256_S256x3_S8192x3_1_0_0_1_n_n 256 rfl rfl).symm]
  refine Finset.sum_congr rfl fun j _ => ?_
  have hk := ValueIdx.contrEquiv1_symm_val dot_S8192x256_S256x3_S8192x3_1_0_0_1_n_n 256 rfl rfl j
  have el : dot_S8192x256_S256x3_S8192x3_1_0_0_1_n_n.lhsIdx (ix2 (⟨64 * s.val + k.val, by omega⟩ : Fin 8192) d) ((ValueIdx.contrEquiv1 dot_S8192x256_S256x3_S8192x3_1_0_0_1_n_n 256 rfl rfl).symm j)
      = ix2 (⟨64 * s.val + k.val, by omega⟩ : Fin 8192) j := funext fun a => Fin.ext (by
    match a with
    | ⟨0, _⟩ => exact lhs_c_0 _ _
    | ⟨1, _⟩ => exact (lhs_c_1 _ _).trans hk)
  have er : dot_S8192x256_S256x3_S8192x3_1_0_0_1_n_n.rhsIdx (ix2 (⟨64 * s.val + k.val, by omega⟩ : Fin 8192) d) ((ValueIdx.contrEquiv1 dot_S8192x256_S256x3_S8192x3_1_0_0_1_n_n 256 rfl rfl).symm j)
      = ix2 j d := funext fun a => Fin.ext (by
    match a with
    | ⟨0, _⟩ => exact (rhs_c_0 _ _).trans hk
    | ⟨1, _⟩ => exact rhs_c_1 _ _)
  rw [el, er, pay6_apply, shapeCast_1ab_ab_apply]

/-! ## The casts, the zero blocks and the two results written out -/

theorem pay1_eq {F : FTy → Type} [FloatOps F] (v31 : FVec F S128x64x3 .f32) : k0_pay1 (F := F) v31 = v31 := by
  unfold k0_pay1
  exact shapeCast_self _ _

theorem pay4_apply (j : S128x64x128.Idx) : k0_pay4 (F := Ideal) j = 0 := by
  unfold k0_pay4
  rw [shapeCast_self]
  show Ideal.ofBits .f32 0x00000000#32 = 0
  exact Ideal.ofBits_zero_f32

theorem pay5_apply (j : S128x64x3.Idx) : k0_pay5 (F := Ideal) j = 0 := by
  unfold k0_pay5
  rw [shapeCast_self]
  show Ideal.ofBits .f32 0x00000000#32 = 0
  exact Ideal.ofBits_zero_f32

theorem pay3_apply (v49 : Vec Ideal S128x64x128 .f32) (s : Fin 128) (k : Fin 64) (d : Fin 128) :
    k0_pay3 (F := Ideal) v49 (ix4 (0 : Fin 1) s k d) = v49 (ix3 s k d) := by
  unfold k0_pay3
  exact shapeCast_abc_1abc_apply v49 _ (0 : Fin 1) s k d

theorem pay2_apply (v38 : Vec Ideal S1x128x3 .f32) (v40 : Vec Ideal S128x64x3 .f32) (s : Fin 128) (k : Fin 64) (d : Fin 3) :
    k0_pay2 (F := Ideal) v38 v40 (ix4 (0 : Fin 1) s k d)
      = Ideal.div (v40 (ix3 s k d) - v38 (ix3 (0 : Fin 1) s d)) (Ideal.ofBits .f32 0x3E4CCCCD#32) := by
  unfold k0_pay2
  refine (shapeCast_abc_1abc_apply _ _ (0 : Fin 1) s k d).trans ?_
  rw [divf_apply, subf_apply, broadcast_apply]
  -- the centre of the ball, the same for the 64 neighbours of row s
  have e42 : ∀ (h1 : S1x128x3.ShapeCasts S128x3) (h2 : S128x3.ShapeCasts S128x1x3) (h3 : S128x1x3.Broadcasts S128x64x3),
      broadcastTo S128x64x3 (shapeCast S128x1x3 (shapeCast S128x3 v38 h1) h2) h3 (ix3 s k d) = v38 (ix3 (0 : Fin 1) s d) := by
    intro h1 h2 h3
    refine (broadcastTo_apply _ _ _ (ix3 s (0 : Fin 1) d) fun a => ?_).trans ?_
    · match a with
      | ⟨0, _⟩ => rfl
      | ⟨1, _⟩ => rfl
      | ⟨2, _⟩ => rfl
    refine (shapeCast_apply _ _ _ (ix2 s d) ?_).trans ?_
    · rw [Shape.rowMajor_val_three, Shape.rowMajor_val_two]
      show s.val * 3 + d.val = (s.val * 1 + 0) * 3 + d.val
      omega
    exact shapeCast_1ab_ab_apply v38 h1 s d
  rw [e42]
  rfl

end Cert.KernelIdeal.Hand

end
-- ==== Proof.Arrays.lean ====
/-
  Names, at their literal types, for what the pipelined region reads: the four input arrays as the region finds
  them (the index array computed by the ball query, the two tables after their change of float format, the query
  coordinates) and, at each grid point, the block of each that the body is handed.
-/
import proofs.«136894_j19550691131908_1_alg».proof.Proof.Gen.KernelIdeal.Frame

noncomputable section

namespace Cert.KernelIdeal.Hand

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ)

/-- The index array idx[b, s, k] as the region finds it. -/
abbrev idxArr (c : Dev nD) : Vec F S8x2048x64 .i32 := V m c main_v25
/-- The coordinate table xyz[b, n, d] as the region finds it. -/
abbrev xyzArr (c : Dev nD) : Vec F S8x16384x3 .bf16 := V m c main_v26
/-- The feature table features[b, n, d] as the region finds it. -/
abbrev featArr (c : Dev nD) : Vec F S8x16384x128 .bf16 := V m c main_v27
/-- The query coordinates new_xyz[b, s, d]. -/
abbrev qArr (c : Dev nD) : Vec F S8x2048x3 .f32 := V m c main_arg1

/-- The block of 128 queries' index rows handed to the body at point `t`. -/
abbrev idxBlk (c : Dev nD) (t : Fin cfg0.N) : Vec F S1x128x64 .i32 := iblk m c 0 t
/-- The chunk of 256 coordinate rows handed to the body at point `t`. -/
abbrev xyzBlk (c : Dev nD) (t : Fin cfg0.N) : Vec F S1x256x3 .bf16 := iblk m c 1 t
/-- The chunk of 256 feature rows handed to the body at point `t`. -/
abbrev featBlk (c : Dev nD) (t : Fin cfg0.N) : Vec F S1x256x128 .bf16 := iblk m c 2 t
/-- The block of 128 queries' coordinates handed to the body at point `t`. -/
abbrev qBlk (c : Dev nD) (t : Fin cfg0.N) : Vec F S1x128x3 .f32 := iblk m c 3 t

end Cert.KernelIdeal.Hand

end
-- ==== Proof.Blocks.lean ====
/-
  From blocks to arrays, on the kernel side, over the extended reals.

  The pipelined region runs over the grid (8, 16, 64). Point t has batch b = t / 1024, query tile s' = t / 64 % 16 and
  chunk n = t % 64. At point t the body is handed rows 128 s' … 128 s' + 127 of batch b of the index array and of the
  query coordinates, and rows 256 n … 256 n + 255 of batch b of the two tables. Both outputs are written back only after
  the last chunk of a tile (t % 64 = 63), as rows 128 s' … 128 s' + 127 of batch b; these 128 blocks tile each output
  array, so an output array ends holding a function G as soon as every written-back block is G's.

  Contents: the grid coordinates and the six windows' block indices as functions of t (the points run row-major, so each
  is a quotient or a remainder of t); a window's block of ANY array contents read at a block index; the four input blocks as entries of the four
  input arrays; what a flushing point writes back; the tiling; the two output arrays after the run.
-/
import proofs.«136894_j19550691131908_1_alg».proof.Proof.Arrays
import Idealize.ShloMosaic.Lib.Pipeline.Value
import Idealize.ShloMosaic.Lib.ValueIdx

noncomputable section

namespace Cert.KernelIdeal.Hand

open Idealize.ShloMosaic Idealize.ShloMosaic.TcCoe Idealize.ShloMosaic.ValueIdx Idealize.SL.Sem Cert.KernelIdeal Cert.KernelIdeal.Gen
open Idealize.ShloMosaic.Pipeline (Dat)

variable (m : (ℓ : Loc nD τ sig) → Buf (Elt Ideal) ℓ)

/-! ## The point's coordinates stay in their ranges -/

/-- The batch of point t is below 8. -/
theorem tb_lt (t : Fin cfg0.N) : t.val / 1024 < 8 := by
  have := t.isLt; have hN : cfg0.N = 8192 := N_0; omega
/-- Row s of query tile t / 64 % 16 is a row of the 2048. -/
theorem ts_lt (t : Fin cfg0.N) (s : Fin 128) : 128 * (t.val / 64 % 16) + s.val < 2048 := by
  have := s.isLt; omega
/-- Row j of chunk t % 64 is a row of the 16384. -/
theorem tn_lt (t : Fin cfg0.N) (j : Fin 256) : 256 * (t.val % 64) + j.val < 16384 := by
  have := j.isLt; omega

/-- grid coordinate 2 of point t is the chunk number -/
theorem coord2 (t : Fin cfg0.N) : ((grid0.coords t) 2).val = t.val % 64 := by
  have s2 : grid0.stride 2 = 1 := by decide
  show t.val / grid0.stride 2 % 64 = t.val % 64
  rw [s2, Nat.div_one]

namespace Blocks

/-! ## The grid coordinates and the block indices as functions of the point

The points run row-major, last axis fastest: coordinate a of point t is t divided by the product of the later bounds,
modulo the bound of a. -/

/-- Point t has batch t / 1024 and query tile t / 64 % 16. -/
theorem coord01 (t : Fin cfg0.N) : ((grid0.coords t) 0).val = t.val / 1024 ∧ ((grid0.coords t) 1).val = t.val / 64 % 16 := by
  have hN : cfg0.N = 8192 := N_0
  have ht := t.isLt
  have s0 : grid0.stride 0 = 1024 := by decide
  have s1 : grid0.stride 1 = 64 := by decide
  refine ⟨?_, ?_⟩
  · show t.val / grid0.stride 0 % 8 = t.val / 1024
    rw [s0]; omega
  · show t.val / grid0.stride 1 % 16 = t.val / 64 % 16
    rw [s1]

/-- A coordinate passed through a 32-bit word is unchanged. -/
theorem word_val (n : Nat) (h : n < 4294967296) : (BitVec.ofNat 32 n).toNat = n := by
  rw [BitVec.toNat_ofNat]; exact Nat.mod_eq_of_lt (by omega)

/-- The index array's window sits at block (b, s', 0). -/
theorem index0 (t : Fin cfg0.N) : win0_0.index t (0 : Fin 3) = t.val / 1024
    ∧ win0_0.index t (1 : Fin 3) = t.val / 64 % 16 ∧ win0_0.index t (2 : Fin 3) = 0 := by
  obtain ⟨c0, c1⟩ := coord01 t
  have h0 : ((grid0.coords t) 0).val < 8 := ((grid0.coords t) 0).isLt
  have h1 : ((grid0.coords t) 1).val < 16 := ((grid0.coords t) 1).isLt
  refine ⟨?_, ?_, rfl⟩
  · show (BitVec.ofNat 32 ((grid0.coords t) 0).val).toNat = _
    rw [word_val _ (by omega), c0]
  · show (BitVec.ofNat 32 ((grid0.coords t) 1).val).toNat = _
    rw [word_val _ (by omega), c1]

/-- The coordinate table's window sits at block (b, n, 0). -/
theorem index1 (t : Fin cfg0.N) : win0_1.index t (0 : Fin 3) = t.val / 1024
    ∧ win0_1.index t (1 : Fin 3) = t.val % 64 ∧ win0_1.index t (2 : Fin 3) = 0 := by
  obtain ⟨c0, -⟩ := coord01 t
  have c2 := coord2 t
  have h0 : ((grid0.coords t) 0).val < 8 := ((grid0.coords t) 0).isLt
  have h2 : ((grid0.coords t) 2).val < 64 := ((grid0.coords t) 2).isLt
  refine ⟨?_, ?_, rfl⟩
  · show (BitVec.ofNat 32 ((grid0.coords t) 0).val).toNat = _
    rw [word_val _ (by omega), c0]
  · show (BitVec.ofNat 32 ((grid0.coords t) 2).val).toNat = _
    rw [word_val _ (by omega), c2]

/-- The feature table's window sits at block (b, n, 0). -/
theorem index2 (t : Fin cfg0.N) : win0_2.index t (0 : Fin 3) = t.val / 1024
    ∧ win0_2.index t (1 : Fin 3) = t.val % 64 ∧ win0_2.index t (2 : Fin 3) = 0 := by
  obtain ⟨c0, -⟩ := coord01 t
  have c2 := coord2 t
  have h0 : ((grid0.coords t) 0).val < 8 := ((grid0.coords t) 0).isLt
  have h2 : ((grid0.coords t) 2).val < 64 := ((grid0.coords t) 2).isLt
  refine ⟨?_, ?_, rfl⟩
  · show (BitVec.ofNat 32 ((grid0.coords t) 0).val).toNat = _
    rw [word_val _ (by omega), c0]
  · show (BitVec.ofNat 32 ((grid0.coords t) 2).val).toNat = _
    rw [word_val _ (by omega), c2]

/-- The query coordinates' window sits at block (b, s', 0). -/
theorem index3 (t : Fin cfg0.N) : win0_3.index t (0 : Fin 3) = t.val / 1024
    ∧ win0_3.index t (1 : Fin 3) = t.val / 64 % 16 ∧ win0_3.index t (2 : Fin 3) = 0 := by
  obtain ⟨c0, c1⟩ := coord01 t
  have h0 : ((grid0.coords t) 0).val < 8 := ((grid0.coords t) 0).isLt
  have h1 : ((grid0.coords t) 1).val < 16 := ((grid0.coords t) 1).isLt
  refine ⟨?_, ?_, rfl⟩
  · show (BitVec.ofNat 32 ((grid0.coords t) 0).val).toNat = _
    rw [word_val _ (by omega), c0]
  · show (BitVec.ofNat 32 ((grid0.coords t) 1).val).toNat = _
    rw [word_val _ (by omega), c1]

/-- The coordinates output's window sits at block (b, s', 0, 0). -/
theorem index4 (t : Fin cfg0.N) : win0_4.index t (0 : Fin 4) = t.val / 1024
    ∧ win0_4.index t (1 : Fin 4) = t.val / 64 % 16 ∧ win0_4.index t (2 : Fin 4) = 0 ∧ win0_4.index t (3 : Fin 4) = 0 := by
  obtain ⟨c0, c1⟩ := coord01 t
  have h0 : ((grid0.coords t) 0).val < 8 := ((grid0.coords t) 0).isLt
  have h1 : ((grid0.coords t) 1).val < 16 := ((grid0.coords t) 1).isLt
  refine ⟨?_, ?_, rfl, rfl⟩
  · show (BitVec.ofNat 32 ((grid0.coords t) 0).val).toNat = _
    rw [word_val _ (by omega), c0]
  · show (BitVec.ofNat 32 ((grid0.coords t) 1).val).toNat = _
    rw [word_val _ (by omega), c1]

/-- The features output's window sits at block (b, s', 0, 0). -/
theorem index5 (t : Fin cfg0.N) : win0_5.index t (0 : Fin 4) = t.val / 1024
    ∧ win0_5.index t (1 : Fin 4) = t.val / 64 % 16 ∧ win0_5.index t (2 : Fin 4) = 0 ∧ win0_5.index t (3 : Fin 4) = 0 := by
  obtain ⟨c0, c1⟩ := coord01 t
  have h0 : ((grid0.coords t) 0).val < 8 := ((grid0.coords t) 0).isLt
  have h1 : ((grid0.coords t) 1).val < 16 := ((grid0.coords t) 1).isLt
  refine ⟨?_, ?_, rfl, rfl⟩
  · show (BitVec.ofNat 32 ((grid0.coords t) 0).val).toNat = _
    rw [word_val _ (by omega), c0]
  · show (BitVec.ofNat 32 ((grid0.coords t) 1).val).toNat = _
    rw [word_val _ (by omega), c1]

/-! ## A window's block of any array contents, read at a block index

On every axis the array coordinate is (block index) × (block size) + (coordinate inside the block). -/

/-- Window 0: block entry (0, s, k) is array entry (b, 128 s' + s, k). -/
theorem read0 (A : Vec Ideal S8x2048x64 .i32) (t : Fin cfg0.N) (s : Fin 128) (k : Fin 64) :
    ((cfg0.win 0).blk t).view.read (Elt Ideal) A (ix3 (0 : Fin 1) s k)
      = A (ix3 ⟨t.val / 1024, tb_lt t⟩ ⟨128 * (t.val / 64 % 16) + s.val, ts_lt t s⟩ k) := by
  obtain ⟨e0, e1, e2⟩ := index0 t
  rw [View.read_apply]
  show A _ = A _
  congr 1
  funext a
  apply Fin.ext
  match a with
  | ⟨0, _⟩ => show win0_0.index t (0 : Fin 3) * 1 + 1 * 0 = t.val / 1024; rw [e0]; omega
  | ⟨1, _⟩ => show win0_0.index t (1 : Fin 3) * 128 + 1 * s.val = 128 * (t.val / 64 % 16) + s.val; rw [e1]; omega
  | ⟨2, _⟩ => show win0_0.index t (2 : Fin 3) * 64 + 1 * k.val = k.val; rw [e2]; omega

/-- Window 1: block entry (0, j, d) is array entry (b, 256 n + j, d). -/
theorem read1 (A : Vec Ideal S8x16384x3 .bf16) (t : Fin cfg0.N) (j : Fin 256) (d : Fin 3) :
    ((cfg0.win 1).blk t).view.read (Elt Ideal) A (ix3 (0 : Fin 1) j d)
      = A (ix3 ⟨t.val / 1024, tb_lt t⟩ ⟨256 * (t.val % 64) + j.val, tn_lt t j⟩ d) := by
  obtain ⟨e0, e1, e2⟩ := index1 t
  rw [View.read_apply]
  show A _ = A _
  congr 1
  funext a
  apply Fin.ext
  match a with
  | ⟨0, _⟩ => show win0_1.index t (0 : Fin 3) * 1 + 1 * 0 = t.val / 1024; rw [e0]; omega
  | ⟨1, _⟩ => show win0_1.index t (1 : Fin 3) * 256 + 1 * j.val = 256 * (t.val % 64) + j.val; rw [e1]; omega
  | ⟨2, _⟩ => show win0_1.index t (2 : Fin 3) * 3 + 1 * d.val = d.val; rw [e2]; omega

/-- Window 2: block entry (0, j, d) is array entry (b, 256 n + j, d). -/
theorem read2 (A : Vec Ideal S8x16384x128 .bf16) (t : Fin cfg0.N) (j : Fin 256) (d : Fin 128) :
    ((cfg0.win 2).blk t).view.read (Elt Ideal) A (ix3 (0 : Fin 1) j d)
      = A (ix3 ⟨t.val / 1024, tb_lt t⟩ ⟨256 * (t.val % 64) + j.val, tn_lt t j⟩ d) := by
  obtain ⟨e0, e1, e2⟩ := index2 t
  rw [View.read_apply]
  show A _ = A _
  congr 1
  funext a
  apply Fin.ext
  match a with
  | ⟨0, _⟩ => show win0_2.index t (0 : Fin 3) * 1 + 1 * 0 = t.val / 1024; rw [e0]; omega
  | ⟨1, _⟩ => show win0_2.index t (1 : Fin 3) * 256 + 1 * j.val = 256 * (t.val % 64) + j.val; rw [e1]; omega
  | ⟨2, _⟩ => show win0_2.index t (2 : Fin 3) * 128 + 1 * d.val = d.val; rw [e2]; omega

/-- Window 3: block entry (0, s, d) is array entry (b, 128 s' + s, d). -/
theorem read3 (A : Vec Ideal S8x2048x3 .f32) (t : Fin cfg0.N) (s : Fin 128) (d : Fin 3) :
    ((cfg0.win 3).blk t).view.read (Elt Ideal) A (ix3 (0 : Fin 1) s d)
      = A (ix3 ⟨t.val / 1024, tb_lt t⟩ ⟨128 * (t.val / 64 % 16) + s.val, ts_lt t s⟩ d) := by
  obtain ⟨e0, e1, e2⟩ := index3 t
  rw [View.read_apply]
  show A _ = A _
  congr 1
  funext a
  apply Fin.ext
  match a with
  | ⟨0, _⟩ => show win0_3.index t (0 : Fin 3) * 1 + 1 * 0 = t.val / 1024; rw [e0]; omega
  | ⟨1, _⟩ => show win0_3.index t (1 : Fin 3) * 128 + 1 * s.val = 128 * (t.val / 64 % 16) + s.val; rw [e1]; omega
  | ⟨2, _⟩ => show win0_3.index t (2 : Fin 3) * 3 + 1 * d.val = d.val; rw [e2]; omega

/-- Window 4: block entry (0, s, k, d) is array entry (b, 128 s' + s, k, d). -/
theorem read4 (G : S8x2048x64x3.Idx → EReal) (t : Fin cfg0.N) (s : Fin 128) (k : Fin 64) (d : Fin 3) :
    ((cfg0.win 4).blk t).view.read (Elt Ideal) G (ix4 (0 : Fin 1) s k d)
      = G (ix4 ⟨t.val / 1024, tb_lt t⟩ ⟨128 * (t.val / 64 % 16) + s.val, ts_lt t s⟩ k d) := by
  obtain ⟨e0, e1, e2, e3⟩ := index4 t
  rw [View.read_apply]
  show G _ = G _
  congr 1
  funext a
  apply Fin.ext
  match a with
  | ⟨0, _⟩ => show win0_4.index t (0 : Fin 4) * 1 + 1 * 0 = t.val / 1024; rw [e0]; omega
  | ⟨1, _⟩ => show win0_4.index t (1 : Fin 4) * 128 + 1 * s.val = 128 * (t.val / 64 % 16) + s.val; rw [e1]; omega
  | ⟨2, _⟩ => show win0_4.index t (2 : Fin 4) * 64 + 1 * k.val = k.val; rw [e2]; omega
  | ⟨3, _⟩ => show win0_4.index t (3 : Fin 4) * 3 + 1 * d.val = d.val; rw [e3]; omega

/-- Window 5: block entry (0, s, k, d) is array entry (b, 128 s' + s, k, d). -/
theorem read5 (G : S8x2048x64x128.Idx → EReal) (t : Fin cfg0.N) (s : Fin 128) (k : Fin 64) (d : Fin 128) :
    ((cfg0.win 5).blk t).view.read (Elt Ideal) G (ix4 (0 : Fin 1) s k d)
      = G (ix4 ⟨t.val / 1024, tb_lt t⟩ ⟨128 * (t.val / 64 % 16) + s.val, ts_lt t s⟩ k d) := by
  obtain ⟨e0, e1, e2, e3⟩ := index5 t
  rw [View.read_apply]
  show G _ = G _
  congr 1
  funext a
  apply Fin.ext
  match a with
  | ⟨0, _⟩ => show win0_5.index t (0 : Fin 4) * 1 + 1 * 0 = t.val / 1024; rw [e0]; omega
  | ⟨1, _⟩ => show win0_5.index t (1 : Fin 4) * 128 + 1 * s.val = 128 * (t.val / 64 % 16) + s.val; rw [e1]; omega
  | ⟨2, _⟩ => show win0_5.index t (2 : Fin 4) * 64 + 1 * k.val = k.val; rw [e2]; omega
  | ⟨3, _⟩ => show win0_5.index t (3 : Fin 4) * 128 + 1 * d.val = d.val; rw [e3]; omega

/-! ## The tiling of the output arrays by the written-back blocks -/

/-- The point after whose body row S of batch b is written back: the last chunk of S's tile. -/
def lastChunk (b : Fin 8) (S : Fin 2048) : Fin cfg0.N :=
  ⟨(b.val * 16 + S.val / 128) * 64 + 63, by
    have := b.isLt; have := S.isLt; rw [show cfg0.N = 8192 from N_0]; omega⟩

/-- It is a point with t % 64 = 63. -/
theorem lastChunk_mod (b : Fin 8) (S : Fin 2048) : (lastChunk b S).val % 64 = 63 := by
  show ((b.val * 16 + S.val / 128) * 64 + 63) % 64 = 63; omega

/-- Every entry of the coordinates output lies in the block of its row's last chunk. -/
theorem mem4 (i : S8x2048x64x3.Idx) : i ∈ ((cfg0.win 4).blk (lastChunk (i 0) (i 1))).view.set := by
  obtain ⟨e0, e1, e2, e3⟩ := index4 (lastChunk (i 0) (i 1))
  show i ∈ ((View.whole main_v28_0).slice (win0_4.rect (lastChunk (i 0) (i 1)))).set
  rw [View.set_slice_whole, Rect.mem_set_unit]
  intro a
  have h0 : (i 0).val < 8 := (i 0).isLt
  have h1 : (i 1).val < 2048 := (i 1).isLt
  have h2 : (i 2).val < 64 := (i 2).isLt
  have h3 : (i 3).val < 3 := (i 3).isLt
  have hp : (lastChunk (i 0) (i 1)).val = ((i 0).val * 16 + (i 1).val / 128) * 64 + 63 := rfl
  match a with
  | ⟨0, _⟩ => show win0_4.index (lastChunk (i 0) (i 1)) (0 : Fin 4) * 1 ≤ (i 0).val ∧ (i 0).val < win0_4.index (lastChunk (i 0) (i 1)) (0 : Fin 4) * 1 + 1; rw [e0, hp]; omega
  | ⟨1, _⟩ => show win0_4.index (lastChunk (i 0) (i 1)) (1 : Fin 4) * 128 ≤ (i 1).val ∧ (i 1).val < win0_4.index (lastChunk (i 0) (i 1)) (1 : Fin 4) * 128 + 128; rw [e1, hp]; omega
  | ⟨2, _⟩ => show win0_4.index (lastChunk (i 0) (i 1)) (2 : Fin 4) * 64 ≤ (i 2).val ∧ (i 2).val < win0_4.index (lastChunk (i 0) (i 1)) (2 : Fin 4) * 64 + 64; rw [e2]; omega
  | ⟨3, _⟩ => show win0_4.index (lastChunk (i 0) (i 1)) (3 : Fin 4) * 3 ≤ (i 3).val ∧ (i 3).val < win0_4.index (lastChunk (i 0) (i 1)) (3 : Fin 4) * 3 + 3; rw [e3]; omega

/-- Every entry of the features output lies in the block of its row's last chunk. -/
theorem mem5 (i : S8x2048x64x128.Idx) : i ∈ ((cfg0.win 5).blk (lastChunk (i 0) (i 1))).view.set := by
  obtain ⟨e0, e1, e2, e3⟩ := index5 (lastChunk (i 0) (i 1))
  show i ∈ ((View.whole main_v28_1).slice (win0_5.rect (lastChunk (i 0) (i 1)))).set
  rw [View.set_slice_whole, Rect.mem_set_unit]
  intro a
  have h0 : (i 0).val < 8 := (i 0).isLt
  have h1 : (i 1).val < 2048 := (i 1).isLt
  have h2 : (i 2).val < 64 := (i 2).isLt
  have h3 : (i 3).val < 128 := (i 3).isLt
  have hp : (lastChunk (i 0) (i 1)).val = ((i 0).val * 16 + (i 1).val / 128) * 64 + 63 := rfl
  match a with
  | ⟨0, _⟩ => show win0_5.index (lastChunk (i 0) (i 1)) (0 : Fin 4) * 1 ≤ (i 0).val ∧ (i 0).val < win0_5.index (lastChunk (i 0) (i 1)) (0 : Fin 4) * 1 + 1; rw [e0, hp]; omega
  | ⟨1, _⟩ => show win0_5.index (lastChunk (i 0) (i 1)) (1 : Fin 4) * 128 ≤ (i 1).val ∧ (i 1).val < win0_5.index (lastChunk (i 0) (i 1)) (1 : Fin 4) * 128 + 128; rw [e1, hp]; omega
  | ⟨2, _⟩ => show win0_5.index (lastChunk (i 0) (i 1)) (2 : Fin 4) * 64 ≤ (i 2).val ∧ (i 2).val < win0_5.index (lastChunk (i 0) (i 1)) (2 : Fin 4) * 64 + 64; rw [e2]; omega
  | ⟨3, _⟩ => show win0_5.index (lastChunk (i 0) (i 1)) (3 : Fin 4) * 128 ≤ (i 3).val ∧ (i 3).val < win0_5.index (lastChunk (i 0) (i 1)) (3 : Fin 4) * 128 + 128; rw [e3]; omega

/-- Every index of a block of window 4 or 5 has first coordinate 0. -/
theorem split4 {n : Nat} (y : (⟨4, ![1, 128, 64, n]⟩ : Shape).Idx) : y = ix4 (0 : Fin 1) (y 1) (y 2) (y 3) := by
  funext a
  match a with
  | ⟨0, _⟩ => exact Fin.ext (Nat.lt_one_iff.mp (y 0).isLt)
  | ⟨1, _⟩ => rfl
  | ⟨2, _⟩ => rfl
  | ⟨3, _⟩ => rfl

/-! ## What a flushing point writes back -/

/-- If the body leaves G's block in the coordinates output's buffer at a point with t % 64 = 63, that point writes
    back G's block: the window is not cut, so what is written back is the buffer's contents. -/
theorem flushed4 (c : Dev nD) (G : S8x2048x64x3.Idx → EReal) (t : Fin cfg0.N)
    (h : ∀ (s : Fin 128) (k : Fin 64) (d : Fin 3),
      ((outsAt0 m c t.val t.isLt).1 : Vec Ideal S1x128x64x3 .f32) (ix4 (0 : Fin 1) s k d)
        = G (ix4 ⟨t.val / 1024, tb_lt t⟩ ⟨128 * (t.val / 64 % 16) + s.val, ts_lt t s⟩ k d)) :
    (dats m 0 c).flushed 4 t = ((cfg0.win 4).blk t).view.read (Elt Ideal) G := by
  show (cfg0.win 4).cut (grid0.coords t) ((dats m 0 c).after 4 t) = _
  rw [after0_4]
  funext y
  have hy : y = ix4 (0 : Fin 1) (y 1) (y 2) (y 3) := split4 (n := 3) y
  rw [hy]
  exact (h (y 1) (y 2) (y 3)).trans (read4 G t (y 1) (y 2) (y 3)).symm

/-- The same for the features output. -/
theorem flushed5 (c : Dev nD) (G : S8x2048x64x128.Idx → EReal) (t : Fin cfg0.N)
    (h : ∀ (s : Fin 128) (k : Fin 64) (d : Fin 128),
      ((outsAt0 m c t.val t.isLt).2.1 : Vec Ideal S1x128x64x128 .f32) (ix4 (0 : Fin 1) s k d)
        = G (ix4 ⟨t.val / 1024, tb_lt t⟩ ⟨128 * (t.val / 64 % 16) + s.val, ts_lt t s⟩ k d)) :
    (dats m 0 c).flushed 5 t = ((cfg0.win 5).blk t).view.read (Elt Ideal) G := by
  show (cfg0.win 5).cut (grid0.coords t) ((dats m 0 c).after 5 t) = _
  rw [after0_5]
  funext y
  have hy : y = ix4 (0 : Fin 1) (y 1) (y 2) (y 3) := split4 (n := 128) y
  rw [hy]
  exact (h (y 1) (y 2) (y 3)).trans (read5 G t (y 1) (y 2) (y 3)).symm

end Blocks

/-! ## The input blocks are entries of the input arrays -/

theorem idxBlk_apply (c : Dev nD) (t : Fin cfg0.N) (s : Fin 128) (k : Fin 64) :
    idxBlk m c t (ix3 (0 : Fin 1) s k) = idxArr m c (ix3 ⟨t.val / 1024, tb_lt t⟩ ⟨128 * (t.val / 64 % 16) + s.val, ts_lt t s⟩ k) := by
  show iblk m c 0 t _ = V m c main_v25 _
  unfold iblk
  exact Blocks.read0 (V m c main_v25) t s k

theorem xyzBlk_apply (c : Dev nD) (t : Fin cfg0.N) (j : Fin 256) (d : Fin 3) :
    xyzBlk m c t (ix3 (0 : Fin 1) j d) = xyzArr m c (ix3 ⟨t.val / 1024, tb_lt t⟩ ⟨256 * (t.val % 64) + j.val, tn_lt t j⟩ d) := by
  show iblk m c 1 t _ = V m c main_v26 _
  unfold iblk
  exact Blocks.read1 (V m c main_v26) t j d

theorem featBlk_apply (c : Dev nD) (t : Fin cfg0.N) (j : Fin 256) (d : Fin 128) :
    featBlk m c t (ix3 (0 : Fin 1) j d) = featArr m c (ix3 ⟨t.val / 1024, tb_lt t⟩ ⟨256 * (t.val % 64) + j.val, tn_lt t j⟩ d) := by
  show iblk m c 2 t _ = V m c main_v27 _
  unfold iblk
  exact Blocks.read2 (V m c main_v27) t j d

theorem qBlk_apply (c : Dev nD) (t : Fin cfg0.N) (s : Fin 128) (d : Fin 3) :
    qBlk m c t (ix3 (0 : Fin 1) s d) = qArr m c (ix3 ⟨t.val / 1024, tb_lt t⟩ ⟨128 * (t.val / 64 % 16) + s.val, ts_lt t s⟩ d) := by
  show iblk m c 3 t _ = V m c main_arg1 _
  unfold iblk
  exact Blocks.read3 (V m c main_arg1) t s d

/-! ## The output arrays after the run -/

/-- the coordinates output array ends holding G, if at every flushing point the body left G's block -/
theorem final4 (c : Dev nD) (G : S8x2048x64x3.Idx → EReal)
    (h : ∀ t : Fin cfg0.N, t.val % 64 = 63 → ∀ (s : Fin 128) (k : Fin 64) (d : Fin 3),
      ((outsAt0 m c t.val t.isLt).1 : Vec Ideal S1x128x64x3 .f32) (ix4 (0 : Fin 1) s k d)
        = G (ix4 ⟨t.val / 1024, tb_lt t⟩ ⟨128 * (t.val / 64 % 16) + s.val, ts_lt t s⟩ k d)) :
    (dats m 0 c).arrAt 4 cfg0.N = G :=
  (dats m 0 c).arrAt_eq_of_cover 4 G
    (fun t hf => Blocks.flushed4 m c G t (h t ((flush0_4 t).mp hf)))
    (fun i => ⟨Blocks.lastChunk (i 0) (i 1), (flush0_4 _).mpr (Blocks.lastChunk_mod (i 0) (i 1)), Blocks.mem4 i⟩)

/-- the features output array likewise -/
theorem final5 (c : Dev nD) (G : S8x2048x64x128.Idx → EReal)
    (h : ∀ t : Fin cfg0.N, t.val % 64 = 63 → ∀ (s : Fin 128) (k : Fin 64) (d : Fin 128),
      ((outsAt0 m c t.val t.isLt).2.1 : Vec Ideal S1x128x64x128 .f32) (ix4 (0 : Fin 1) s k d)
        = G (ix4 ⟨t.val / 1024, tb_lt t⟩ ⟨128 * (t.val / 64 % 16) + s.val, ts_lt t s⟩ k d)) :
    (dats m 0 c).arrAt 5 cfg0.N = G :=
  (dats m 0 c).arrAt_eq_of_cover 5 G
    (fun t hf => Blocks.flushed5 m c G t (h t ((flush0_5 t).mp hf)))
    (fun i => ⟨Blocks.lastChunk (i 0) (i 1), (flush0_5 _).mpr (Blocks.lastChunk_mod (i 0) (i 1)), Blocks.mem5 i⟩)

end Cert.KernelIdeal.Hand

end
-- ==== Proof.Spec.lean ====
/-
  What the grouping computes, as whole-array functions of the index array and the tables.

  For a query `(b, s)` and a slot `k` the index array names a point `p = I (b, s, k)` of batch `b`. The grouped
  features are the point's feature row; the grouped coordinates are the point's coordinates minus the query's,
  divided by the radius (the same 32-bit literal on both sides, never evaluated). A row beyond the table reads zero:
  that is what a one-hot product over the table's rows gives for an index that matches no row.
-/
import proofs.«136894_j19550691131908_1_alg».proof.Proof.Gen.KernelIdeal
import Idealize.ShloMosaic.Lib.ValueIdx

noncomputable section

namespace Cert.KernelIdeal.Hand

open Idealize.ShloMosaic Idealize.ShloMosaic.ValueIdx Cert.KernelIdeal

/-- Entry `(b, p, d)` of a table of 16384 rows per batch, as a function of the natural number `p`: zero beyond the table. -/
def rowAt {C : ℕ} (X : (⟨3, ![8, 16384, C]⟩ : Shape).Idx → EReal) (b : Fin 8) (d : Fin C) (p : ℕ) : EReal :=
  if h : p < 16384 then X (ix3 b ⟨p, h⟩ d) else 0

theorem rowAt_of_lt {C : ℕ} (X : (⟨3, ![8, 16384, C]⟩ : Shape).Idx → EReal) (b : Fin 8) (d : Fin C) (p : ℕ) (h : p < 16384) :
    rowAt X b d p = X (ix3 b ⟨p, h⟩ d) := dif_pos h

/-- The grouped features: the feature row of the point the index array names. -/
def groupedFeat (I : S8x2048x64.Idx → BitVec 32) (Y : S8x16384x128.Idx → EReal) : S8x2048x64x128.Idx → EReal :=
  fun j => rowAt Y (j 0) (j 3) (I (ix3 (j 0) (j 1) (j 2))).toNat

/-- The grouped coordinates: the named point's coordinates, recentred at the query and divided by the radius. -/
def groupedXyz (I : S8x2048x64.Idx → BitVec 32) (X : S8x16384x3.Idx → EReal) (Q : S8x2048x3.Idx → EReal) :
    S8x2048x64x3.Idx → EReal :=
  fun j => Ideal.div (rowAt X (j 0) (j 3) (I (ix3 (j 0) (j 1) (j 2))).toNat - Q (ix3 (j 0) (j 1) (j 3)))
    (Ideal.ofBits .f32 0x3E4CCCCD#32)

end Cert.KernelIdeal.Hand

end
-- ==== Proof.Accum.lean ====
/-
  The accumulators, chunk by chunk, and what the kernel writes out.

  Fix a query tile and a row `(s, k)` of it; let `v` be the row's index word. After the chunks `0 … n` of the table
  the accumulator's entry `(s, k, d)` is the table's entry `(v, d)` if `v < 256 (n + 1)`, and `0` otherwise: chunk `n`
  adds `Σ_j [v = 256 n + j] · table(256 n + j, d)`, which is `table(v, d)` when `v` lies in the chunk and `0` when it
  does not. After the last chunk (`256 · 64 = 16384`) that is the table's row `v`, read as zero beyond the table.
  The features output is that accumulator; the coordinates output subtracts the query and divides by the radius.
-/
import proofs.«136894_j19550691131908_1_alg».proof.Proof.Pieces
import proofs.«136894_j19550691131908_1_alg».proof.Proof.Payload
import proofs.«136894_j19550691131908_1_alg».proof.Proof.Blocks
import proofs.«136894_j19550691131908_1_alg».proof.Proof.Spec
import proofs.«136894_j19550691131908_1_alg».proof.Proof.LibOneHot

noncomputable section

namespace Cert.KernelIdeal.Hand

open Idealize.ShloMosaic Idealize.ShloMosaic.TcCoe Idealize.ShloMosaic.ValueIdx Idealize.SL.Sem Cert.KernelIdeal Cert.KernelIdeal.Gen
open Cert.Lib.OneHot

/-- ONE CHUNK. An accumulator entry that is `X v` once `v` lies below chunk `n`, plus chunk `n`'s one-hot product over
    a block that holds `X` at the chunk's positions, is `X v` once `v` lies below chunk `n + 1`. -/
theorem chunk_step (v : BitVec 32) (n : ℕ) (hn : n < 64) (X : ℕ → EReal) (acc : EReal) (blk : Fin 256 → EReal)
    (hacc : acc = if v.toNat < 256 * n then X v.toNat else 0) (hblk : ∀ j : Fin 256, blk j = X (256 * n + j.val)) :
    acc + ∑ j : Fin 256, (if v = BitVec.ofNat 32 (256 * n + j.val) then (1 : EReal) else 0) * blk j
      = if v.toNat < 256 * (n + 1) then X v.toNat else 0 := by
  have e : (∑ j : Fin 256, (if v = BitVec.ofNat 32 (256 * n + j.val) then (1 : EReal) else 0) * blk j)
      = ∑ j : Fin 256, (if v = BitVec.ofNat 32 (256 * n + j.val) then (1 : EReal) else 0) * X (256 * n + j.val) :=
    Finset.sum_congr rfl fun j _ => by rw [hblk j]
  rw [hacc, e, sum_onehot v (256 * n) (by omega) X, upto_add, Nat.mul_succ]

/-- Beyond the table a row reads zero, so "the row if `p < 16384`, else zero" is the row. -/
theorem rowAt_ite {C : ℕ} (X : (⟨3, ![8, 16384, C]⟩ : Shape).Idx → EReal) (b : Fin 8) (d : Fin C) (p : ℕ) :
    (if p < 16384 then rowAt X b d p else 0) = rowAt X b d p := by
  by_cases h : p < 16384
  · rw [if_pos h]
  · rw [if_neg h]; unfold rowAt; rw [dif_neg h]

variable (m : (ℓ : Loc nD τ sig) → Buf (Elt Ideal) ℓ)

/-- The batch a grid point works on. -/
abbrev batchOf (t : Fin cfg0.N) : Fin 8 := ⟨t.val / 1024, tb_lt t⟩

/-- The features accumulator entry after the chunks below `B / 256`. -/
def featUpto (c : Dev nD) (t : Fin cfg0.N) (B : ℕ) (s : Fin 128) (k : Fin 64) (d : Fin 128) : EReal :=
  if (idxBlk m c t (ix3 (0 : Fin 1) s k)).toNat < B
    then rowAt (featArr m c) (batchOf t) d (idxBlk m c t (ix3 (0 : Fin 1) s k)).toNat else 0

/-- The coordinates accumulator entry after the chunks below `B / 256`. -/
def xyzUpto (c : Dev nD) (t : Fin cfg0.N) (B : ℕ) (s : Fin 128) (k : Fin 64) (d : Fin 3) : EReal :=
  if (idxBlk m c t (ix3 (0 : Fin 1) s k)).toNat < B
    then rowAt (xyzArr m c) (batchOf t) d (idxBlk m c t (ix3 (0 : Fin 1) s k)).toNat else 0

/-- One chunk's update of the features accumulator. -/
theorem feat_step (c : Dev nD) (t : Fin cfg0.N) (acc : Vec Ideal S128x64x128 .f32) (s : Fin 128) (k : Fin 64) (d : Fin 128)
    (hacc : acc (ix3 s k d) = featUpto m c t (256 * (t.val % 64)) s k d) :
    k0_pay7 (F := Ideal) (grid0.coords t) (idxBlk m c t) (featBlk m c t) acc (ix3 s k d)
      = featUpto m c t (256 * (t.val % 64 + 1)) s k d := by
  rw [pay7_apply, coord2]
  exact chunk_step _ (t.val % 64) (Nat.mod_lt _ (by decide)) (rowAt (featArr m c) (batchOf t) d) _ _ hacc
    (fun j => by rw [featBlk_apply, rowAt_of_lt _ _ _ _ (tn_lt t j)])

/-- One chunk's update of the coordinates accumulator. -/
theorem xyz_step (c : Dev nD) (t : Fin cfg0.N) (acc : Vec Ideal S128x64x3 .f32) (s : Fin 128) (k : Fin 64) (d : Fin 3)
    (hacc : acc (ix3 s k d) = xyzUpto m c t (256 * (t.val % 64)) s k d) :
    k0_pay1 (F := Ideal) (k0_pay8 (F := Ideal) (grid0.coords t) (idxBlk m c t) (xyzBlk m c t) acc) (ix3 s k d)
      = xyzUpto m c t (256 * (t.val % 64 + 1)) s k d := by
  rw [pay1_eq, pay8_apply, coord2]
  exact chunk_step _ (t.val % 64) (Nat.mod_lt _ (by decide)) (rowAt (xyzArr m c) (batchOf t) d) _ _ hacc
    (fun j => by rw [xyzBlk_apply, rowAt_of_lt _ _ _ _ (tn_lt t j)])

/-- Within a query tile the index block and the batch do not change from one chunk to the next. -/
theorem upto_pred_feat (c : Dev nD) (t : Fin cfg0.N) (h0 : ¬t.val % 64 = 0) (hp : t.val - 1 < cfg0.N) (s : Fin 128) (k : Fin 64) (d : Fin 128) :
    featUpto m c ⟨t.val - 1, hp⟩ (256 * ((t.val - 1) % 64 + 1)) s k d = featUpto m c t (256 * (t.val % 64)) s k d := by
  have hb : batchOf ⟨t.val - 1, hp⟩ = batchOf t := Fin.ext (by show (t.val - 1) / 1024 = t.val / 1024; omega)
  have hi : idxBlk m c ⟨t.val - 1, hp⟩ (ix3 (0 : Fin 1) s k) = idxBlk m c t (ix3 (0 : Fin 1) s k) := by
    rw [idxBlk_apply, idxBlk_apply]
    exact congrArg (idxArr m c) (by
      funext a
      match a with
      | ⟨0, _⟩ => exact Fin.ext (by show (t.val - 1) / 1024 = t.val / 1024; omega)
      | ⟨1, _⟩ => exact Fin.ext (by show 128 * ((t.val - 1) / 64 % 16) + s.val = 128 * (t.val / 64 % 16) + s.val; omega)
      | ⟨2, _⟩ => rfl)
  have hB : 256 * ((t.val - 1) % 64 + 1) = 256 * (t.val % 64) := by omega
  unfold featUpto
  rw [hb, hi, hB]

theorem upto_pred_xyz (c : Dev nD) (t : Fin cfg0.N) (h0 : ¬t.val % 64 = 0) (hp : t.val - 1 < cfg0.N) (s : Fin 128) (k : Fin 64) (d : Fin 3) :
    xyzUpto m c ⟨t.val - 1, hp⟩ (256 * ((t.val - 1) % 64 + 1)) s k d = xyzUpto m c t (256 * (t.val % 64)) s k d := by
  have hb : batchOf ⟨t.val - 1, hp⟩ = batchOf t := Fin.ext (by show (t.val - 1) / 1024 = t.val / 1024; omega)
  have hi : idxBlk m c ⟨t.val - 1, hp⟩ (ix3 (0 : Fin 1) s k) = idxBlk m c t (ix3 (0 : Fin 1) s k) := by
    rw [idxBlk_apply, idxBlk_apply]
    exact congrArg (idxArr m c) (by
      funext a
      match a with
      | ⟨0, _⟩ => exact Fin.ext (by show (t.val - 1) / 1024 = t.val / 1024; omega)
      | ⟨1, _⟩ => exact Fin.ext (by show 128 * ((t.val - 1) / 64 % 16) + s.val = 128 * (t.val / 64 % 16) + s.val; omega)
      | ⟨2, _⟩ => rfl)
  have hB : 256 * ((t.val - 1) % 64 + 1) = 256 * (t.val % 64) := by omega
  unfold xyzUpto
  rw [hb, hi, hB]

/-- THE ACCUMULATORS after every point: by induction on the point, the first chunk of a tile starting from the
    cleared accumulator, every later chunk from what the chunk before left. -/
theorem acc_eq (c : Dev nD) : ∀ (n : ℕ) (hn : n < cfg0.N),
    (∀ (s : Fin 128) (k : Fin 64) (d : Fin 128),
      ((outsAt0 m c n hn).2.2.1 : Vec Ideal S128x64x128 .f32) (ix3 s k d) = featUpto m c ⟨n, hn⟩ (256 * (n % 64 + 1)) s k d)
    ∧ (∀ (s : Fin 128) (k : Fin 64) (d : Fin 3),
      ((outsAt0 m c n hn).2.2.2 : Vec Ideal S128x64x3 .f32) (ix3 s k d) = xyzUpto m c ⟨n, hn⟩ (256 * (n % 64 + 1)) s k d) := by
  intro n
  induction n with
  | zero =>
    intro hn
    have h0 : (⟨0, hn⟩ : Fin cfg0.N).val % 64 = 0 := rfl
    have h1 : ¬(⟨0, hn⟩ : Fin cfg0.N).val % 64 = 63 := by show ¬((0 : ℕ) % 64 = 63); decide
    constructor
    · intro s k d
      rw [outsAt0_A m c ⟨0, hn⟩ h0 h1]; dsimp only
      rw [featAcc_A]
      exact feat_step m c ⟨0, hn⟩ _ s k d (by
        rw [pay4_apply]; unfold featUpto; rw [if_neg (by show ¬ _ < 256 * (0 % 64); omega)])
    · intro s k d
      rw [outsAt0_A m c ⟨0, hn⟩ h0 h1]; dsimp only
      rw [xyzAcc_A]
      exact xyz_step m c ⟨0, hn⟩ _ s k d (by
        rw [pay5_apply]; unfold xyzUpto; rw [if_neg (by show ¬ _ < 256 * (0 % 64); omega)])
  | succ n ih =>
    intro hn
    have hp : n < cfg0.N := Nat.lt_of_succ_lt hn
    obtain ⟨ihf, ihx⟩ := ih hp
    by_cases h0 : (n + 1) % 64 = 0
    · have h1 : ¬(n + 1) % 64 = 63 := by omega
      constructor
      · intro s k d
        rw [outsAt0_A m c ⟨n + 1, hn⟩ h0 h1]; dsimp only
        rw [featAcc_A]
        exact feat_step m c ⟨n + 1, hn⟩ _ s k d (by
          rw [pay4_apply]; unfold featUpto; rw [if_neg (by show ¬ _ < 256 * ((n + 1) % 64); omega)])
      · intro s k d
        rw [outsAt0_A m c ⟨n + 1, hn⟩ h0 h1]; dsimp only
        rw [xyzAcc_A]
        exact xyz_step m c ⟨n + 1, hn⟩ _ s k d (by
          rw [pay5_apply]; unfold xyzUpto; rw [if_neg (by show ¬ _ < 256 * ((n + 1) % 64); omega)])
    · have hf : ∀ (s : Fin 128) (k : Fin 64) (d : Fin 128),
          ((outsAt0 m c ((⟨n + 1, hn⟩ : Fin cfg0.N).val - 1) (Nat.lt_of_le_of_lt (Nat.sub_le _ _) (⟨n + 1, hn⟩ : Fin cfg0.N).isLt)).2.2.1 : Vec Ideal S128x64x128 .f32) (ix3 s k d)
            = featUpto m c ⟨n + 1, hn⟩ (256 * ((n + 1) % 64)) s k d := fun s k d =>
        (ihf s k d).trans (upto_pred_feat m c ⟨n + 1, hn⟩ h0 hp s k d)
      have hx : ∀ (s : Fin 128) (k : Fin 64) (d : Fin 3),
          ((outsAt0 m c ((⟨n + 1, hn⟩ : Fin cfg0.N).val - 1) (Nat.lt_of_le_of_lt (Nat.sub_le _ _) (⟨n + 1, hn⟩ : Fin cfg0.N).isLt)).2.2.2 : Vec Ideal S128x64x3 .f32) (ix3 s k d)
            = xyzUpto m c ⟨n + 1, hn⟩ (256 * ((n + 1) % 64)) s k d := fun s k d =>
        (ihx s k d).trans (upto_pred_xyz m c ⟨n + 1, hn⟩ h0 hp s k d)
      by_cases h1 : (n + 1) % 64 = 63
      · constructor
        · intro s k d
          rw [outsAt0_C m c ⟨n + 1, hn⟩ h0 h1]; dsimp only
          rw [featAcc_C]
          exact feat_step m c ⟨n + 1, hn⟩ _ s k d (hf s k d)
        · intro s k d
          rw [outsAt0_C m c ⟨n + 1, hn⟩ h0 h1]; dsimp only
          rw [xyzAcc_C]
          exact xyz_step m c ⟨n + 1, hn⟩ _ s k d (hx s k d)
      · constructor
        · intro s k d
          rw [outsAt0_B m c ⟨n + 1, hn⟩ h0 h1]; dsimp only
          rw [featAcc_B]
          exact feat_step m c ⟨n + 1, hn⟩ _ s k d (hf s k d)
        · intro s k d
          rw [outsAt0_B m c ⟨n + 1, hn⟩ h0 h1]; dsimp only
          rw [xyzAcc_B]
          exact xyz_step m c ⟨n + 1, hn⟩ _ s k d (hx s k d)

/-- At a tile's last chunk the features output block is the feature row the index word names. -/
theorem featOut (c : Dev nD) (t : Fin cfg0.N) (h63 : t.val % 64 = 63) (s : Fin 128) (k : Fin 64) (d : Fin 128) :
    ((outsAt0 m c t.val t.isLt).2.1 : Vec Ideal S1x128x64x128 .f32) (ix4 (0 : Fin 1) s k d)
      = groupedFeat (idxArr m c) (featArr m c) (ix4 (batchOf t) ⟨128 * (t.val / 64 % 16) + s.val, ts_lt t s⟩ k d) := by
  have h0 : ¬t.val % 64 = 0 := by omega
  have hp : t.val - 1 < cfg0.N := Nat.lt_of_le_of_lt (Nat.sub_le _ _) t.isLt
  rw [outsAt0_C m c t h0 h63]; dsimp only
  rw [featOut_C, pay3_apply]
  rw [feat_step m c t _ s k d (((acc_eq m c (t.val - 1) hp).1 s k d).trans (upto_pred_feat m c t h0 hp s k d))]
  unfold featUpto groupedFeat
  rw [show 256 * (t.val % 64 + 1) = 16384 by omega, rowAt_ite, idxBlk_apply]

/-- At a tile's last chunk the coordinates output block is the named point's coordinates, recentred and scaled. -/
theorem xyzOut (c : Dev nD) (t : Fin cfg0.N) (h63 : t.val % 64 = 63) (s : Fin 128) (k : Fin 64) (d : Fin 3) :
    ((outsAt0 m c t.val t.isLt).1 : Vec Ideal S1x128x64x3 .f32) (ix4 (0 : Fin 1) s k d)
      = groupedXyz (idxArr m c) (xyzArr m c) (qArr m c) (ix4 (batchOf t) ⟨128 * (t.val / 64 % 16) + s.val, ts_lt t s⟩ k d) := by
  have h0 : ¬t.val % 64 = 0 := by omega
  have hp : t.val - 1 < cfg0.N := Nat.lt_of_le_of_lt (Nat.sub_le _ _) t.isLt
  rw [outsAt0_C m c t h0 h63]; dsimp only
  rw [xyzOut_C, pay2_apply]
  rw [xyz_step m c t _ s k d (((acc_eq m c (t.val - 1) hp).2 s k d).trans (upto_pred_xyz m c t h0 hp s k d))]
  unfold xyzUpto groupedXyz
  rw [show 256 * (t.val % 64 + 1) = 16384 by omega, rowAt_ite, idxBlk_apply,
    show iblk m c 3 t (ix3 (0 : Fin 1) s d) = _ from qBlk_apply m c t s d]

/-- So the two output arrays end holding the grouped coordinates and the grouped features. -/
theorem arr4_eq (c : Dev nD) : (dats m 0 c).arrAt 4 cfg0.N = groupedXyz (idxArr m c) (xyzArr m c) (qArr m c) :=
  final4 m c _ (fun t h63 s k d => xyzOut m c t h63 s k d)

theorem arr5_eq (c : Dev nD) : (dats m 0 c).arrAt 5 cfg0.N = groupedFeat (idxArr m c) (featArr m c) :=
  final5 m c _ (fun t h63 s k d => featOut m c t h63 s k d)

end Cert.KernelIdeal.Hand

end
-- ==== Proof.Tail.lean ====
/-
  The kernel's run, read: its result is the join, along the channel axis, of the grouped coordinates and the grouped
  features of the arrays the region finds. The region leaves its two output arrays at what the last chunk of each
  query tile wrote (the accumulators' closed form), and the one operation after the region joins them; the argument
  arrays end as launched.
-/
import proofs.«136894_j19550691131908_1_alg».proof.Proof.Accum
import Idealize.ShloMosaic.Lib.StableHlo.Run
import Idealize.ShloMosaic.Lib.Pipeline.Value
import Idealize.ShloMosaic.PureOps.Ideal

set_option maxRecDepth 16384

noncomputable section

namespace Cert.KernelIdeal.Hand

open Idealize.ShloMosaic Idealize.ShloMosaic.TcCoe Idealize.SL.Sem Cert.KernelIdeal Cert.KernelIdeal.Gen Idealize.ShloMosaic.StableHlo

variable (m : (ℓ : Loc nD τ sig) → Buf (Elt Ideal) ℓ) (ρ : Dev nD → PrngReg)

/-- The join of two arrays along the channel axis, as the program's last operation applies it. -/
def joinChannels (a : S8x2048x64x3.Idx → EReal) (b : S8x2048x64x128.Idx → EReal) : S8x2048x64x131.Idx → EReal :=
  concatenate (α := EReal) S8x2048x64x131 3 [⟨S8x2048x64x3, a⟩, ⟨S8x2048x64x128, b⟩] concatenates_S8x2048x64x3_S8x2048x64x128_S8x2048x64x131_d3

/-- The kernel's result on core `c`: grouped coordinates and grouped features, joined. -/
def result (c : Dev nD) : S8x2048x64x131.Idx → EReal :=
  joinChannels (groupedXyz (idxArr m c) (xyzArr m c) (qArr m c)) (groupedFeat (idxArr m c) (featArr m c))

/-- The operation after the region joins the two output arrays as the region left them. -/
theorem tail_eq (c : Dev nD) : Pipeline.afterTail₀ cfgs (dats m) 0 (V0 m) [hostOps1] c main_v29
    = joinChannels ((dats m 0 c).arrAt 4 cfg0.N) ((dats m 0 c).arrAt 5 cfg0.N) := by
  unfold Pipeline.afterTail₀
  show StableHlo.after hostOps1 _ (Proc.devRef .tc main_v29) = _
  after_results
  have e4 : Pipeline.withArrays (cfgs 0).spec c (V0 m c) (fun w => (dats m 0 c).arrAt w (cfgs 0).N) (Proc.devRef .tc main_v28_0)
      = (dats m 0 c).arrAt 4 cfg0.N := Pipeline.withArrays_arr spec0 launch0.win.arr_inj c _ _ 4
  have e5 : Pipeline.withArrays (cfgs 0).spec c (V0 m c) (fun w => (dats m 0 c).arrAt w (cfgs 0).N) (Proc.devRef .tc main_v28_1)
      = (dats m 0 c).arrAt 5 cfg0.N := Pipeline.withArrays_arr spec0 launch0.win.arr_inj c _ _ 5
  rw [e4, e5]
  rfl

/-- Every weakly fair execution ends with the result buffer at the join of the two output arrays and the arguments
    as launched. -/
theorem run_arr : θ_run defs (onTc (τ := τ) (main (F := Ideal))) ⟨m, fun _ => 0, ρ⟩ (fun r => ∀ c : Dev nD,
      r.2.mem ((c.tc : Thread nD τ).loc main_v29) = joinChannels ((dats m 0 c).arrAt 4 cfg0.N) ((dats m 0 c).arrAt 5 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v29 (Pipeline.mem_restRefs_of main_v29 (by decide) (by decide))).trans (tail_eq m c),
     ((h c).2 main_arg0 (Pipeline.mem_restRefs_of main_arg0 (by decide) (by decide))).trans (W_main_arg0 m (dats m) c),
     ((h c).1 3).trans (((dats m 0 c).arrAt_in 3 rfl _).trans ((A_eq m c 3).trans (V_main_arg1 m c))),
     ((h c).2 main_arg2 (Pipeline.mem_restRefs_of main_arg2 (by decide) (by decide))).trans (W_main_arg2 m (dats m) c)⟩)
    (run_main m ρ)

/-- The same with the two output arrays at their closed forms. -/
theorem run : θ_run defs (onTc (τ := τ) (main (F := Ideal))) ⟨m, fun _ => 0, ρ⟩ (fun r => ∀ c : Dev nD,
      r.2.mem ((c.tc : Thread nD τ).loc main_v29) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (by unfold result; rw [arr4_eq, arr5_eq]), (h c).2⟩) (run_arr m ρ)

end Cert.KernelIdeal.Hand

end
-- ==== Proof.HostHead.lean ====
/-
  What the region finds in its four input arrays, as functions of the arguments.

  The kernel's program computes the index array by the same ball query as the reference, operation for operation
  (squared distances by |q|² + |x|² − 2 q·x, the compare with the squared radius, the point numbers where the compare
  holds and the sentinel elsewhere, a stable sort of each row, its first 64 entries, the sentinel replaced by the row's
  first entry or by zero), so the array the region finds is the reference's own index stage of the same arguments; it
  is never opened here. The two tables reach the region through a change of float format, which is the identity on
  the extended reals, and the query coordinates reach it untouched.
-/
import proofs.«136894_j19550691131908_1_alg».proof.Proof.Arrays
import proofs.«136894_j19550691131908_1_alg».proof.Proof.RefRead
import Idealize.ShloMosaic.Lib.StableHlo.Run
import Idealize.ShloMosaic.Lib.ValueIdx
import Idealize.ShloMosaic.PureOps.Ideal

set_option maxRecDepth 16384

noncomputable section

namespace Cert.KernelIdeal.Hand

open Idealize.ShloMosaic Idealize.ShloMosaic.TcCoe Idealize.SL.Sem Cert.KernelIdeal Cert.KernelIdeal.Gen Idealize.ShloMosaic.StableHlo

set_option maxHeartbeats 4000000 in
/-- The index array the region finds is the reference's index stage of the same two arguments (at any float
    values: nothing in the ball query is evaluated). -/
theorem idxArr_eq {F : FTy → Type} [FloatOps F] (m : (ℓ : Loc nD τ sig) → Buf (Elt F) ℓ) (c : Dev nD) :
    idxArr m c = Cert.ReferenceIdeal.Read.val_main_v25 (F := F) (m ((c : Thread nD τ).loc main_arg0)) (m ((c : Thread nD τ).loc main_arg1)) := by
  show V m c main_v25 = _
  dsimp only [V, V0]
  simp only [hostOps0, hostOps0_1, hostOps0_2, hostOps0_3, hostOps0_4, hostOps0_5, hostOps0_6, hostOps0_7, List.flatten_cons,
    List.flatten_nil, List.append_nil, List.cons_append, List.nil_append]
  after_results_simp
  rfl

variable (m : (ℓ : Loc nD τ sig) → Buf (Elt Ideal) ℓ)

/-- The coordinate table reaches the region through a change of float format: the identity on the extended reals. -/
theorem xyzArr_eq (c : Dev nD) : (xyzArr m c : S8x16384x3.Idx → EReal) = m ((c : Thread nD τ).loc main_arg0) := by
  show (V m c main_v26 : S8x16384x3.Idx → EReal) = _
  dsimp only [V, V0]
  simp only [hostOps0, hostOps0_1, hostOps0_2, hostOps0_3, hostOps0_4, hostOps0_5, hostOps0_6, hostOps0_7, List.flatten_cons,
    List.flatten_nil, List.append_nil, List.cons_append, List.nil_append]
  after_results_simp
  rfl

/-- The feature table likewise. -/
theorem featArr_eq (c : Dev nD) : (featArr m c : S8x16384x128.Idx → EReal) = m ((c : Thread nD τ).loc main_arg2) := by
  show (V m c main_v27 : S8x16384x128.Idx → EReal) = _
  dsimp only [V, V0]
  simp only [hostOps0, hostOps0_1, hostOps0_2, hostOps0_3, hostOps0_4, hostOps0_5, hostOps0_6, hostOps0_7, List.flatten_cons,
    List.flatten_nil, List.append_nil, List.cons_append, List.nil_append]
  after_results_simp
  rfl

/-- The query coordinates reach the region untouched. -/
theorem qArr_eq (c : Dev nD) : qArr m c = m ((c : Thread nD τ).loc main_arg1) := V_main_arg1 m c

end Cert.KernelIdeal.Hand

end
-- ==== Proof.RefValue.lean ====
/-
  The reference's gathered values, read at an index.

  The reference builds an index array (a ball query): each candidate position is kept where the mask is set and
  replaced by the sentinel 16384 elsewhere, each fibre is sorted, the first 64 entries are kept, and a sentinel among
  them is replaced by the fibre's first entry (itself replaced by 0 when it is the sentinel). Every entry of that
  array is therefore below 16384: it names a row of the tables. Such an index is not negative as a signed word, so
  the negative-index wrap in front of each gather leaves it alone, and it is inside the table, so the gather's clamp
  leaves it alone too: the gather reads, at (b, s, k, d), the table's row `idx (b, s, k)` of batch `b` at channel `d`.
-/
import proofs.«136894_j19550691131908_1_alg».proof.Proof.RefRead
import proofs.«136894_j19550691131908_1_alg».proof.Proof.LibOneHot
import Idealize.ShloMosaic.Lib.ValueIdx
import Idealize.ShloMosaic.PureOps.ShapeOps
import Idealize.ShloMosaic.PureOps.Ideal

noncomputable section

namespace Cert.ReferenceIdeal.Hand

open Idealize.ShloMosaic Idealize.ShloMosaic.ValueIdx Cert.ReferenceIdeal Cert.ReferenceIdeal.Read

variable {F : FTy → Type} [FloatOps F]

/-! ## Words -/

/-- Where a word at most the sentinel 16384 IS the sentinel it is replaced by a word below it, elsewhere it is kept:
    the result is below the sentinel. -/
theorem select_sentinel_lt (v r : BitVec 32) (hv : v.toNat ≤ 16384) (hr : r.toNat < 16384) :
    (Scalar.select (IntOp.cmpi .eq v 16384#32) r v).toNat < 16384 := by
  unfold Scalar.select
  split
  · exact hr
  · rename_i h
    have hne : v ≠ 16384#32 := fun e => h ((Cert.Lib.OneHot.cmpi_eq_one_iff _ _).2 e)
    have hn : v.toNat ≠ 16384 := fun e => hne (BitVec.eq_of_toNat_eq (by rw [e]; rfl))
    omega

/-- A word below 16384 is not negative when read signed, so a select on "negative" keeps it. -/
theorem wrap_id (x a : BitVec 32) (h : x.toNat < 16384) : Scalar.select (IntOp.cmpi .slt x 0#32) a x = x := by
  have hm : x.msb = false := BitVec.msb_eq_false_iff_two_mul_lt.2 (by omega)
  have hc : IntOp.cmpi .slt x 0#32 = 0#1 := by
    show BitVec.ofBool (x.slt 0#32) = 0#1
    rw [BitVec.slt_zero_eq_msb, hm]
    rfl
  rw [hc]
  exact select_zero _ _

/-- A word below 16384 read signed and then as a natural number is its unsigned value. -/
theorem toInt_toNat_of_lt (x : BitVec 32) (h : x.toNat < 16384) : x.toInt.toNat = x.toNat := by
  rw [BitVec.toInt_eq_toNat_of_lt (by omega)]
  exact Int.toNat_natCast _

/-! ## The index array is below 16384 -/

/-- The masked candidates: a position (below 16384) or the sentinel 16384. -/
theorem v16_le (x0 : (⟨S8x16384x3, .f32⟩ : BufTy).Contents (Elt F)) (x1 : (⟨S8x2048x3, .f32⟩ : BufTy).Contents (Elt F)) (i : S8x2048x16384.Idx) :
    (val_main_v16 (F := F) x0 x1 i).toNat ≤ 16384 := by
  rw [val_main_v16_apply, val_main_call0_v0_apply, val_main_v15_apply, val_main_call0_v1_apply, val_main_c_apply]
  unfold Scalar.select
  split
  · rw [BitVec.toNat_ofNat]
    have h : ((idx_main_call0_v0 i) 0).val < 16384 := ((idx_main_call0_v0 i) 0).isLt
    exact Nat.le_of_lt (Nat.lt_of_le_of_lt (Nat.mod_le _ _) h)
  · decide

/-- A sort permutes each fibre, so the bound passes to the sorted array. -/
theorem v17_le (x0 : (⟨S8x16384x3, .f32⟩ : BufTy).Contents (Elt F)) (x1 : (⟨S8x2048x3, .f32⟩ : BufTy).Contents (Elt F)) (j : S8x2048x16384.Idx) :
    (val_main_v17 (F := F) x0 x1 j).toNat ≤ 16384 := by
  unfold val_main_v17
  exact Cert.Lib.OneHot.sort_forall (s := S8x2048x16384) (d := 2) (α := BitVec 32) comparator_i32_d2
    (val_main_v16 (F := F) x0 x1) (fun v => v.toNat ≤ 16384) (fun i => v16_le x0 x1 i) j

/-- The first 64 entries of each fibre. -/
theorem v18_le (x0 : (⟨S8x16384x3, .f32⟩ : BufTy).Contents (Elt F)) (x1 : (⟨S8x2048x3, .f32⟩ : BufTy).Contents (Elt F)) (i : S8x2048x64.Idx) :
    (val_main_v18 (F := F) x0 x1 i).toNat ≤ 16384 := by
  rw [val_main_v18_apply]
  exact v17_le x0 x1 _

/-- The first entry of each fibre. -/
theorem v19_le (x0 : (⟨S8x16384x3, .f32⟩ : BufTy).Contents (Elt F)) (x1 : (⟨S8x2048x3, .f32⟩ : BufTy).Contents (Elt F)) (i : S8x2048x1.Idx) :
    (val_main_v19 (F := F) x0 x1 i).toNat ≤ 16384 := by
  rw [val_main_v19_apply]
  exact v18_le x0 x1 _

/-- The first entry with the sentinel replaced by 0. -/
theorem v22_lt (x0 : (⟨S8x16384x3, .f32⟩ : BufTy).Contents (Elt F)) (x1 : (⟨S8x2048x3, .f32⟩ : BufTy).Contents (Elt F)) (i : S8x2048x1.Idx) :
    (val_main_v22 (F := F) x0 x1 i).toNat < 16384 := by
  rw [val_main_v22_apply, val_main_v21_apply, val_main_v20_apply, val_main_c_3_apply, val_main_call2_v1_apply,
    val_main_call2_v0_apply, val_main_c_4_apply]
  exact select_sentinel_lt _ _ (v19_le x0 x1 i) (by decide)

/-- every entry of the index array names a row of the table -/
theorem idx_lt (x0 : (⟨S8x16384x3, .f32⟩ : BufTy).Contents (Elt F)) (x1 : (⟨S8x2048x3, .f32⟩ : BufTy).Contents (Elt F)) (i : S8x2048x64.Idx) :
    (val_main_v25 (F := F) x0 x1 i).toNat < 16384 := by
  rw [val_main_v25_apply, val_main_v24_apply, val_main_v23_apply, val_main_c_5_apply, val_main_call3_v0_apply]
  exact select_sentinel_lt _ _ (v18_le x0 x1 i) (v22_lt x0 x1 _)

/-! ## The negative-index wrap is the identity on the index array -/

theorem v30_eq (x0 : (⟨S8x16384x3, .f32⟩ : BufTy).Contents (Elt F)) (x1 : (⟨S8x2048x3, .f32⟩ : BufTy).Contents (Elt F)) (i : S8x2048x64.Idx) :
    val_main_v30 (F := F) x0 x1 i = val_main_v25 (F := F) x0 x1 i := by
  rw [val_main_v30_apply, val_main_v27_apply, val_main_v26_apply, val_main_c_6_apply]
  exact wrap_id _ _ (idx_lt x0 x1 i)

theorem v42_eq (x0 : (⟨S8x16384x3, .f32⟩ : BufTy).Contents (Elt F)) (x1 : (⟨S8x2048x3, .f32⟩ : BufTy).Contents (Elt F)) (i : S8x2048x64.Idx) :
    val_main_v42 (F := F) x0 x1 i = val_main_v25 (F := F) x0 x1 i := by
  rw [val_main_v42_apply, val_main_v39_apply, val_main_v38_apply, val_main_c_9_apply]
  exact wrap_id _ _ (idx_lt x0 x1 i)

/-- The start indices of the first gather (a unit axis added) at (b, s, k, 0): the index array at (b, s, k). -/
theorem v31_at (x0 : (⟨S8x16384x3, .f32⟩ : BufTy).Contents (Elt F)) (x1 : (⟨S8x2048x3, .f32⟩ : BufTy).Contents (Elt F)) (b : Fin 8) (s : Fin 2048) (k : Fin 64) :
    val_main_v31 (F := F) x0 x1 (ix4 b s k (0 : Fin 1)) = val_main_v25 (F := F) x0 x1 (ix3 b s k) := by
  rw [val_main_v31_apply, v30_eq]
  exact congrArg (val_main_v25 (F := F) x0 x1) (funext fun a => by
    match a with
    | ⟨0, _⟩ => rfl
    | ⟨1, _⟩ => rfl
    | ⟨2, _⟩ => rfl)

/-- The start indices of the second gather at (b, s, k, 0): the index array at (b, s, k). -/
theorem v43_at (x0 : (⟨S8x16384x3, .f32⟩ : BufTy).Contents (Elt F)) (x1 : (⟨S8x2048x3, .f32⟩ : BufTy).Contents (Elt F)) (b : Fin 8) (s : Fin 2048) (k : Fin 64) :
    val_main_v43 (F := F) x0 x1 (ix4 b s k (0 : Fin 1)) = val_main_v25 (F := F) x0 x1 (ix3 b s k) := by
  rw [val_main_v43_apply, v42_eq]
  exact congrArg (val_main_v25 (F := F) x0 x1) (funext fun a => by
    match a with
    | ⟨0, _⟩ => rfl
    | ⟨1, _⟩ => rfl
    | ⟨2, _⟩ => rfl)

/-! ## The gather of rows

An operand [8, 16384, C], start indices [8, 2048, 64, 1], a result [8, 2048, 64, C]: axis 0 of the operand is a batching
axis paired with axis 0 of the start indices, axis 1 is collapsed and start-indexed (the index vector is the start
indices' last axis, of size one), axis 2 is the one offset axis, taken whole (slice sizes [1, 1, C]). Result element
(b, s, k, c) reads the operand at (b, start, c), where start is the start index at (b, s, k, 0) read signed and
clamped into [0, 16383]; an index already in that range is its own clamp. -/

/-- Those dimension numbers, for any channel count `C`; their conditions are decided on a program's literal shapes. -/
abbrev rowsDims (C : Nat)
    (wf : GatherDims.WF ⟨3, ![8, 16384, C]⟩ ⟨4, ![8, 2048, 64, 1]⟩ ⟨4, ![8, 2048, 64, C]⟩ [3] [1] [0] [1] [0] 3 ![1, 1, C]) :
    GatherDims ⟨3, ![8, 16384, C]⟩ ⟨4, ![8, 2048, 64, 1]⟩ ⟨4, ![8, 2048, 64, C]⟩ where
  offsetDims := [3]
  collapsedSliceDims := [1]
  operandBatchingDims := [0]
  startIndicesBatchingDims := [0]
  startIndexMap := [1]
  indexVectorDim := 3
  sliceSizes := ![1, 1, C]
  wf := wf

/-- THE GATHER READ AT (b, s, k, c): the operand's row `n` of batch `b` at channel `c`, where `n` is the start index at
    (b, s, k, 0) read signed, once that is below 16384 (the clamp into [0, 16383] is then the identity). Axis by axis:
    the batching axis carries the result's coordinate `b`, the collapsed axis the clamped start, the offset axis the
    result's coordinate `c`. -/
theorem gather_rows_apply {α : Type} {C w : Nat}
    (wf : GatherDims.WF ⟨3, ![8, 16384, C]⟩ ⟨4, ![8, 2048, 64, 1]⟩ ⟨4, ![8, 2048, 64, C]⟩ [3] [1] [0] [1] [0] 3 ![1, 1, C])
    (x : (⟨3, ![8, 16384, C]⟩ : Shape).Idx → α) (idx : IVec ⟨4, ![8, 2048, 64, 1]⟩ w)
    (b : Fin 8) (s : Fin 2048) (k : Fin 64) (c : Fin C) (n : Nat)
    (hn : (idx (ix4 b s k 0)).toInt.toNat = n) (h : n < 16384) :
    Host.gather (rowsDims C wf) x idx (ix4 b s k c) = x (ix3 b ⟨n, h⟩ c) := by
  subst hn
  unfold Host.gather
  congr 1
  funext a
  refine Fin.ext ?_
  show (rowsDims C wf).start (ix4 b s k c) idx a + (rowsDims C wf).batchCoord (ix4 b s k c) a + (rowsDims C wf).offCoord (ix4 b s k c) a = _
  match a with
  | ⟨0, h0⟩ =>
    -- the batching axis: no start, no offset, the result's coordinate on the start indices' batching axis
    have hb : (⟨0, h0⟩ : Fin (⟨3, ![8, 16384, C]⟩ : Shape).rank) ∈ (rowsDims C wf).operandBatchingDims :=
      List.mem_singleton.mpr rfl
    rw [GatherDims.start_batching _ _ _ _ hb,
      GatherDims.offCoord_eq_zero _ _ _ (fun h => ((GatherDims.mem_sKept _ _).mp h).2 hb), Nat.zero_add, Nat.add_zero]
    rfl
  | ⟨1, h1⟩ =>
    -- the collapsed axis: the start index at (b, s, k, 0), clamped; no batching or offset coordinate
    have hc : (⟨1, h1⟩ : Fin (⟨3, ![8, 16384, C]⟩ : Shape).rank) ∈ (rowsDims C wf).collapsedSliceDims :=
      List.mem_singleton.mpr rfl
    have hnb : (⟨1, h1⟩ : Fin (⟨3, ![8, 16384, C]⟩ : Shape).rank) ∉ (rowsDims C wf).operandBatchingDims :=
      fun h => absurd (congrArg Fin.val (List.mem_singleton.mp h)) (by decide : ¬ ((1 : Nat) = 0))
    have hm : (⟨1, h1⟩ : Fin (⟨3, ![8, 16384, C]⟩ : Shape).rank) ∈ (rowsDims C wf).startIndexMap :=
      List.mem_singleton.mpr rfl
    rw [GatherDims.batchCoord_eq_zero _ _ _ hnb,
      GatherDims.offCoord_eq_zero _ _ _ (fun h => ((GatherDims.mem_sKept _ _).mp h).1 hc), Nat.add_zero]
    unfold GatherDims.start
    rw [dif_pos hm]
    have hsi : (rowsDims C wf).siIdx (ix4 b s k c) ⟨List.idxOf (⟨1, h1⟩ : Fin (⟨3, ![8, 16384, C]⟩ : Shape).rank)
        (rowsDims C wf).startIndexMap, List.idxOf_lt_length_iff.2 hm⟩ = ix4 b s k (0 : Fin 1) := by
      funext a'; refine Fin.ext ?_
      match a' with
      | ⟨0, _⟩ => rfl
      | ⟨1, _⟩ => rfl
      | ⟨2, _⟩ => rfl
      | ⟨3, _⟩ => rfl
    rw [hsi]
    show min (idx (ix4 b s k 0)).toInt.toNat (16384 - 1) = (idx (ix4 b s k 0)).toInt.toNat
    exact Nat.min_eq_left (by omega)
  | ⟨2, h2⟩ =>
    -- the offset axis: start 0 (not start-indexed), the result's coordinate on its one offset axis
    have hnm : (⟨2, h2⟩ : Fin (⟨3, ![8, 16384, C]⟩ : Shape).rank) ∉ (rowsDims C wf).startIndexMap :=
      fun h => absurd (congrArg Fin.val (List.mem_singleton.mp h)) (by decide : ¬ ((2 : Nat) = 1))
    have hnb : (⟨2, h2⟩ : Fin (⟨3, ![8, 16384, C]⟩ : Shape).rank) ∉ (rowsDims C wf).operandBatchingDims :=
      fun h => absurd (congrArg Fin.val (List.mem_singleton.mp h)) (by decide : ¬ ((2 : Nat) = 0))
    rw [GatherDims.batchCoord_eq_zero _ _ _ hnb, Nat.add_zero]
    unfold GatherDims.start
    rw [dif_neg hnm, Nat.zero_add]
    rfl

/-! ## The two gathers of the reference, and the recentred coordinates -/

/-- The first gather: the coordinates' row the index array names. -/
theorem v32_apply (x0 : (⟨S8x16384x3, .f32⟩ : BufTy).Contents (Elt Ideal)) (x1 : (⟨S8x2048x3, .f32⟩ : BufTy).Contents (Elt Ideal))
    (b : Fin 8) (s : Fin 2048) (k : Fin 64) (d : Fin 3) :
    val_main_v32 (F := Ideal) x0 x1 (ix4 b s k d)
      = x0 (ix3 b ⟨(val_main_v25 (F := Ideal) x0 x1 (ix3 b s k)).toNat, idx_lt x0 x1 _⟩ d) := by
  unfold val_main_v32
  exact gather_rows_apply (C := 3) Facts₀.gather_S8x16384x3_S8x2048x64x1_S8x2048x64x3_3_1_0_0_1_3_113_wf x0 (val_main_v31 (F := Ideal) x0 x1) b s k d _
    (by rw [v31_at, toInt_toNat_of_lt _ (idx_lt x0 x1 _)]) (idx_lt x0 x1 _)

theorem v37_apply (x0 : (⟨S8x16384x3, .f32⟩ : BufTy).Contents (Elt Ideal)) (x1 : (⟨S8x2048x3, .f32⟩ : BufTy).Contents (Elt Ideal))
    (b : Fin 8) (s : Fin 2048) (k : Fin 64) (d : Fin 3) :
    val_main_v37 (F := Ideal) x0 x1 (ix4 b s k d)
      = Ideal.div (x0 (ix3 b ⟨(val_main_v25 (F := Ideal) x0 x1 (ix3 b s k)).toNat, idx_lt x0 x1 _⟩ d) - x1 (ix3 b s d))
          (Ideal.ofBits .f32 0x3E4CCCCD#32) := by
  rw [val_main_v37_apply, val_main_v35_apply, v32_apply, val_main_v34_apply, val_main_v33_apply, val_main_v36_apply,
    val_main_cst_8_apply, Ideal.hostDivf_def, Ideal.subf_def, Ideal.ofBits_def]
  have e : idx_main_v33 (idx_main_v34 (ix4 b s k d)) = ix3 b s d := funext fun a => by
    match a with
    | ⟨0, _⟩ => rfl
    | ⟨1, _⟩ => rfl
    | ⟨2, _⟩ => rfl
  rw [e]

theorem v44_apply (x0 : (⟨S8x16384x3, .f32⟩ : BufTy).Contents (Elt Ideal)) (x1 : (⟨S8x2048x3, .f32⟩ : BufTy).Contents (Elt Ideal))
    (x2 : (⟨S8x16384x128, .f32⟩ : BufTy).Contents (Elt Ideal)) (b : Fin 8) (s : Fin 2048) (k : Fin 64) (d : Fin 128) :
    val_main_v44 (F := Ideal) x0 x1 x2 (ix4 b s k d)
      = x2 (ix3 b ⟨(val_main_v25 (F := Ideal) x0 x1 (ix3 b s k)).toNat, idx_lt x0 x1 _⟩ d) := by
  unfold val_main_v44
  exact gather_rows_apply (C := 128) Facts₀.gather_S8x16384x128_S8x2048x64x1_S8x2048x64x128_3_1_0_0_1_3_11128_wf x2 (val_main_v43 (F := Ideal) x0 x1) b s k d _
    (by rw [v43_at, toInt_toNat_of_lt _ (idx_lt x0 x1 _)]) (idx_lt x0 x1 _)

end Cert.ReferenceIdeal.Hand

end
-- ==== Proof.lean ====
/-
  The certificate: a grouping of point features by a ball query, computed by a pipelined one-hot matrix product,
  against its gather-based reference, over the extended reals.

  Both programs compute the same index array idx[b, s, k] by the same host operations; every entry of it names a row
  of the table (the sort only permutes each row of point numbers and sentinels, and the sentinel is replaced by a
  point number). The reference gathers row idx of each table. The kernel multiplies, chunk by chunk, the indicator
  matrix of idx with the table and accumulates the products: over the extended reals `0 · x = 0` and `1 · x = x` for
  every `x`, so the accumulated product is exactly row idx, with no condition on the tables' entries. Both then
  recentre the coordinates at the query, divide by the same radius literal, and join coordinates and features along
  the channel axis. The change of the tables' float format on the kernel's side is the identity on the extended reals.

  The frames of the two kernel programs are the generated ones; the reference's frame is its generated run; the ideal
  pass rewrote nothing, so `preserves` is `True`.
-/
import proofs.«136894_j19550691131908_1_alg».proof.Defs
import proofs.«136894_j19550691131908_1_alg».proof.Proof.Gen.Kernel
import proofs.«136894_j19550691131908_1_alg».proof.Proof.Gen.Kernel.Skeleton
import proofs.«136894_j19550691131908_1_alg».proof.Proof.Gen.Kernel.Launch
import proofs.«136894_j19550691131908_1_alg».proof.Proof.Gen.Kernel.Points
import proofs.«136894_j19550691131908_1_alg».proof.Proof.Gen.Kernel.Frame
import proofs.«136894_j19550691131908_1_alg».proof.Proof.Gen.KernelIdeal
import proofs.«136894_j19550691131908_1_alg».proof.Proof.Gen.KernelIdeal.Skeleton
import proofs.«136894_j19550691131908_1_alg».proof.Proof.Gen.KernelIdeal.Launch
import proofs.«136894_j19550691131908_1_alg».proof.Proof.Gen.KernelIdeal.Points
import proofs.«136894_j19550691131908_1_alg».proof.Proof.Gen.KernelIdeal.Frame
import proofs.«136894_j19550691131908_1_alg».proof.Proof.Gen.ReferenceIdeal
import proofs.«136894_j19550691131908_1_alg».proof.Proof.RefRun
import proofs.«136894_j19550691131908_1_alg».proof.Proof.RefRead
import proofs.«136894_j19550691131908_1_alg».proof.Proof.Gen.Pre_finite_inputs
import proofs.«136894_j19550691131908_1_alg».proof.Proof.Tail
import proofs.«136894_j19550691131908_1_alg».proof.Proof.HostHead
import proofs.«136894_j19550691131908_1_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem

open Cert.KernelIdeal.Hand in
/-- The reference's last stage, at the kernel's arguments, is the kernel's result: the gathers at an index are the
    rows the index array names (every index in range), the recentring and the division are the same operations of
    the same entries, and the join along the channel axis is one function of the two parts. -/
theorem ref_eq (m : (ℓ : Loc Cert.KernelIdeal.nD Cert.KernelIdeal.τ Cert.KernelIdeal.sig) → Buf (Elt Ideal) ℓ) (c : Dev Cert.KernelIdeal.nD) :
    Cert.ReferenceIdeal.Read.val_main_v45 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
      = result m c := by
  have e4 : Cert.ReferenceIdeal.Read.val_main_v37 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = groupedXyz (idxArr m c) (xyzArr m c) (qArr m c) := by
    funext j
    obtain ⟨b, s, k, d, rfl⟩ : ∃ (b : Fin 8) (s : Fin 2048) (k : Fin 64) (d : Fin 3), j = ix4 b s k d :=
      ⟨j 0, j 1, j 2, j 3, eq_ix4 j⟩
    rw [Cert.ReferenceIdeal.Hand.v37_apply]
    unfold groupedXyz
    rw [idxArr_eq, xyzArr_eq, qArr_eq, rowAt_of_lt _ _ _ _ (Cert.ReferenceIdeal.Hand.idx_lt _ _ _)]
  have e5 : Cert.ReferenceIdeal.Read.val_main_v44 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
      = groupedFeat (idxArr m c) (featArr m c) := by
    funext j
    obtain ⟨b, s, k, d, rfl⟩ : ∃ (b : Fin 8) (s : Fin 2048) (k : Fin 64) (d : Fin 128), j = ix4 b s k d :=
      ⟨j 0, j 1, j 2, j 3, eq_ix4 j⟩
    rw [Cert.ReferenceIdeal.Hand.v44_apply]
    unfold groupedFeat
    rw [idxArr_eq, featArr_eq, rowAt_of_lt _ _ _ _ (Cert.ReferenceIdeal.Hand.idx_lt _ _ _)]
  unfold Cert.ReferenceIdeal.Read.val_main_v45 result joinChannels
  rw [e4, e5]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Run from memories that agree on the arguments, the kernel ends at the grouped coordinates joined with the
    grouped features of its arguments, and the reference at its last stage of the same arguments: one array. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v45_eq, (hagree c).1, (hagree c).2.1, (hagree c).2.2]
  exact ref_eq m c

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
